-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S320000 : Shape := ⟨1, ![320000]⟩
abbrev S10000x128 : Shape := ⟨2, ![10000, 128]⟩
abbrev S320000x128 : Shape := ⟨2, ![320000, 128]⟩
abbrev S128x256 : Shape := ⟨2, ![128, 256]⟩
abbrev S256 : Shape := ⟨1, ![256]⟩
abbrev S256x128 : Shape := ⟨2, ![256, 128]⟩
abbrev S128 : Shape := ⟨1, ![128]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S320000x128 : S_.BroadcastsInDim S320000x128 (![] : Fin 0 → Fin S320000x128.rank)
  reducesTo_S320000x128_S_d0_1 : S320000x128.ReducesTo [0, 1] S_
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S320000 : S_.BroadcastsInDim S320000 (![] : Fin 0 → Fin S320000.rank)
  reducesTo_S320000_S_d0 : S320000.ReducesTo [0] S_

variable [Facts]

def fn_part2 {F : FTy → Type} [FloatOps F] (main_arg1 : IVec S320000 32) (main_v28 : IVec S_ 1) (main_v33 : IVec S320000 1) : IVec S_ 1 :=
  let main_c_12 : IVec S_ 1 := constantI S_ 1 1#1
  let main_v34 : IVec S_ 1 := (fun x v => Host.reduce IntOp.andi x v reducesTo_S320000_S_d0 h_S_) main_v33 main_c_12
  let main_v35 : IVec S_ 1 := andi main_v28 main_v34
  let main_c_13 : IVec S_ 32 := constantI S_ 32 0#32
  let main_v36 : IVec S320000 32 := broadcastInDim S320000 ![] bcast_S_S320000 main_c_13
  let main_v37 : IVec S320000 1 := cmpi .sge main_arg1 main_v36
  let main_c_14 : IVec S_ 32 := constantI S_ 32 10000#32
  let main_v38 : IVec S320000 32 := broadcastInDim S320000 ![] bcast_S_S320000 main_c_14
  let main_v39 : IVec S320000 1 := cmpi .slt main_arg1 main_v38
  let main_v40 : IVec S320000 1 := andi main_v37 main_v39
  let main_c_15 : IVec S_ 1 := constantI S_ 1 1#1
  let main_v41 : IVec S_ 1 := (fun x v => Host.reduce IntOp.andi x v reducesTo_S320000_S_d0 h_S_) main_v40 main_c_15
  let main_v42 : IVec S_ 1 := andi main_v35 main_v41
  main_v42

def fn_part1 {F : FTy → Type} [FloatOps F] (main_arg0 : IVec S320000 32) (main_arg1 : IVec S320000 32) (main_arg6 : FVec F S256x128 .f32) (main_arg7 : FVec F S128 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x128 .f32 := Host.absf main_arg6
  let main_cst_6 : FVec F S_ .f32 := constant S_ .f32 0x7F800000#32
  let main_v20 : FVec F S256x128 .f32 := broadcastInDim S256x128 ![] bcast_S_S256x128 main_cst_6
  let main_v21 : IVec S256x128 1 := cmpf .olt main_v19 main_v20
  let main_c_7 : IVec S_ 1 := constantI S_ 1 1#1
  let main_v22 : IVec S_ 1 := (fun x v => Host.reduce IntOp.andi x v reducesTo_S256x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_c_10 : IVec S_ 32 := constantI S_ 32 0#32
  let main_v29 : IVec S320000 32 := broadcastInDim S320000 ![] bcast_S_S320000 main_c_10
  let main_v30 : IVec S320000 1 := cmpi .sge main_arg0 main_v29
  let main_c_11 : IVec S_ 32 := constantI S_ 32 10000#32
  let main_v31 : IVec S320000 32 := broadcastInDim S320000 ![] bcast_S_S320000 main_c_11
  let main_v32 : IVec S320000 1 := cmpi .slt main_arg0 main_v31
  let main_v33 : IVec S320000 1 := andi main_v30 main_v32
  fn_part2 (F := F) main_arg1 main_v28 main_v33

def fn {F : FTy → Type} [FloatOps F] (main_arg0 : IVec S320000 32) (main_arg1 : IVec S320000 32) (main_arg2 : FVec F S10000x128 .f32) (main_arg3 : FVec F S320000x128 .f32) (main_arg4 : FVec F S128x256 .f32) (main_arg5 : FVec F S256 .f32) (main_arg6 : FVec F S256x128 .f32) (main_arg7 : FVec F S128 .f32) : IVec S_ 1 :=
  let main_v0 : FVec F S10000x128 .f32 := Host.absf main_arg2
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S320000x128 .f32 := Host.absf main_arg3
  let main_cst_0 : FVec F S_ .f32 := constant S_ .f32 0x7F800000#32
  let main_v5 : FVec F S320000x128 .f32 := broadcastInDim S320000x128 ![] bcast_S_S320000x128 main_cst_0
  let main_v6 : IVec S320000x128 1 := cmpf .olt main_v4 main_v5
  let main_c_1 : IVec S_ 1 := constantI S_ 1 1#1
  let main_v7 : IVec S_ 1 := (fun x v => Host.reduce IntOp.andi x v reducesTo_S320000x128_S_d0_1 h_S_) main_v6 main_c_1
  let main_v8 : IVec S_ 1 := andi main_v3 main_v7
  let main_v9 : FVec F S128x256 .f32 := Host.absf main_arg4
  let main_cst_2 : FVec F S_ .f32 := constant S_ .f32 0x7F800000#32
  let main_v10 : FVec F S128x256 .f32 := broadcastInDim S128x256 ![] bcast_S_S128x256 main_cst_2
  let main_v11 : IVec S128x256 1 := cmpf .olt main_v9 main_v10
  let main_c_3 : IVec S_ 1 := constantI S_ 1 1#1
  let main_v12 : IVec S_ 1 := (fun x v => Host.reduce IntOp.andi x v reducesTo_S128x256_S_d0_1 h_S_) main_v11 main_c_3
  let main_v13 : IVec S_ 1 := andi main_v8 main_v12
  let main_v14 : FVec F S256 .f32 := Host.absf main_arg5
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg0 main_arg1 main_arg6 main_arg7 main_v13 main_v16
-- ==== Kernel.lean ====
abbrev S320000 : Shape := ⟨1, ![320000]⟩
abbrev S10000x128 : Shape := ⟨2, ![10000, 128]⟩
abbrev S320000x128 : Shape := ⟨2, ![320000, 128]⟩
abbrev S128x256 : Shape := ⟨2, ![128, 256]⟩
abbrev S256 : Shape := ⟨1, ![256]⟩
abbrev S256x128 : Shape := ⟨2, ![256, 128]⟩
abbrev S128 : Shape := ⟨1, ![128]⟩
abbrev S_ : Shape := ⟨0, ![]⟩
abbrev S320000x1 : Shape := ⟨2, ![320000, 1]⟩
abbrev S1 : Shape := ⟨1, ![1]⟩
abbrev S1x1 : Shape := ⟨2, ![1, 1]⟩
abbrev S1x256 : Shape := ⟨2, ![1, 256]⟩
abbrev S1x128 : Shape := ⟨2, ![1, 128]⟩
abbrev S6400x128 : Shape := ⟨2, ![6400, 128]⟩
abbrev S6400x256 : Shape := ⟨2, ![6400, 256]⟩

abbrev nBuf : Space → Nat
  | .hbm => 62
  | .vmem => 8
  | .smem => 0
  | _ => 0

abbrev bufTy : (tb : Table) → Fin (tcTables nBuf tb) → BufTy
  | .hbm, ⟨0, _⟩ => ⟨S320000, .i32⟩
  | .hbm, ⟨1, _⟩ => ⟨S320000, .i32⟩
  | .hbm, ⟨2, _⟩ => ⟨S10000x128, .f32⟩
  | .hbm, ⟨3, _⟩ => ⟨S320000x128, .f32⟩
  | .hbm, ⟨4, _⟩ => ⟨S128x256, .f32⟩
  | .hbm, ⟨5, _⟩ => ⟨S256, .f32⟩
  | .hbm, ⟨6, _⟩ => ⟨S256x128, .f32⟩
  | .hbm, ⟨7, _⟩ => ⟨S128, .f32⟩
  | .hbm, ⟨8, _⟩ => ⟨S_, .i32⟩
  | .hbm, ⟨9, _⟩ => ⟨S320000, .i32⟩
  | .hbm, ⟨10, _⟩ => ⟨S320000, .i1⟩
  | .hbm, ⟨11, _⟩ => ⟨S_, .i32⟩
  | .hbm, ⟨12, _⟩ => ⟨S320000, .i32⟩
  | .hbm, ⟨13, _⟩ => ⟨S320000, .i32⟩
  | .hbm, ⟨14, _⟩ => ⟨S320000, .i32⟩
  | .hbm, ⟨15, _⟩ => ⟨S320000x1, .i32⟩
  | .hbm, ⟨16, _⟩ => ⟨S1, .i32⟩
  | .hbm, ⟨17, _⟩ => ⟨S_, .i32⟩
  | .hbm, ⟨18, _⟩ => ⟨S320000x1, .i32⟩
  | .hbm, ⟨19, _⟩ => ⟨S320000x1, .i1⟩
  | .hbm, ⟨20, _⟩ => ⟨S1x1, .i32⟩
  | .hbm, ⟨21, _⟩ => ⟨S320000x1, .i32⟩
  | .hbm, ⟨22, _⟩ => ⟨S320000x1, .i1⟩
  | .hbm, ⟨23, _⟩ => ⟨S320000x1, .i1⟩
  | .hbm, ⟨24, _⟩ => ⟨S_, .i1⟩
  | .hbm, ⟨25, _⟩ => ⟨S320000, .i1⟩
  | .hbm, ⟨26, _⟩ => ⟨S320000x128, .f32⟩
  | .hbm, ⟨27, _⟩ => ⟨S320000x128, .i1⟩
  | .hbm, ⟨28, _⟩ => ⟨S_, .f32⟩
  | .hbm, ⟨29, _⟩ => ⟨S320000x128, .f32⟩
  | .hbm, ⟨30, _⟩ => ⟨S320000x128, .f32⟩
  | .hbm, ⟨31, _⟩ => ⟨S_, .i32⟩
  | .hbm, ⟨32, _⟩ => ⟨S320000, .i32⟩
  | .hbm, ⟨33, _⟩ => ⟨S320000, .i1⟩
  | .hbm, ⟨34, _⟩ => ⟨S_, .i32⟩
  | .hbm, ⟨35, _⟩ => ⟨S320000, .i32⟩
  | .hbm, ⟨36, _⟩ => ⟨S320000, .i32⟩
  | .hbm, ⟨37, _⟩ => ⟨S320000, .i32⟩
  | .hbm, ⟨38, _⟩ => ⟨S320000x1, .i32⟩
  | .hbm, ⟨39, _⟩ => ⟨S1, .i32⟩
  | .hbm, ⟨40, _⟩ => ⟨S_, .i32⟩
  | .hbm, ⟨41, _⟩ => ⟨S320000x1, .i32⟩
  | .hbm, ⟨42, _⟩ => ⟨S320000x1, .i1⟩
  | .hbm, ⟨43, _⟩ => ⟨S1x1, .i32⟩
  | .hbm, ⟨44, _⟩ => ⟨S320000x1, .i32⟩
  | .hbm, ⟨45, _⟩ => ⟨S320000x1, .i1⟩
  | .hbm, ⟨46, _⟩ => ⟨S320000x1, .i1⟩
  | .hbm, ⟨47, _⟩ => ⟨S_, .i1⟩
  | .hbm, ⟨48, _⟩ => ⟨S320000, .i1⟩
  | .hbm, ⟨49, _⟩ => ⟨S320000x128, .f32⟩
  | .hbm, ⟨50, _⟩ => ⟨S320000x128, .i1⟩
  | .hbm, ⟨51, _⟩ => ⟨S_, .f32⟩
  | .hbm, ⟨52, _⟩ => ⟨S320000x128, .f32⟩
  | .hbm, ⟨53, _⟩ => ⟨S320000x128, .f32⟩
  | .hbm, ⟨54, _⟩ => ⟨S320000x128, .f32⟩
  | .hbm, ⟨55, _⟩ => ⟨S320000x128, .f32⟩
  | .hbm, ⟨56, _⟩ => ⟨S320000x128, .bf16⟩
  | .hbm, ⟨57, _⟩ => ⟨S128x256, .bf16⟩
  | .hbm, ⟨58, _⟩ => ⟨S256x128, .bf16⟩
  | .hbm, ⟨59, _⟩ => ⟨S1x256, .f32⟩
  | .hbm, ⟨60, _⟩ => ⟨S1x128, .f32⟩
  | .hbm, ⟨61, _⟩ => ⟨S320000x128, .f32⟩
  | .local _ .vmem, ⟨0, _⟩ => ⟨S6400x128, .bf16⟩
  | .local _ .vmem, ⟨1, _⟩ => ⟨S6400x128, .bf16⟩
  | .local _ .vmem, ⟨2, _⟩ => ⟨S128x256, .bf16⟩
  | .local _ .vmem, ⟨3, _⟩ => ⟨S1x256, .f32⟩
  | .local _ .vmem, ⟨4, _⟩ => ⟨S256x128, .bf16⟩
  | .local _ .vmem, ⟨5, _⟩ => ⟨S1x128, .f32⟩
  | .local _ .vmem, ⟨6, _⟩ => ⟨S6400x128, .f32⟩
  | .local _ .vmem, ⟨7, _⟩ => ⟨S6400x128, .f32⟩
  | _, _ => ⟨S320000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_call0_c : Ref sig .tc := ⟨.hbm, 8, rfl⟩
abbrev main_call0_v0 : Ref sig .tc := ⟨.hbm, 9, rfl⟩
abbrev main_call0_v1 : Ref sig .tc := ⟨.hbm, 10, rfl⟩
abbrev main_call0_c_0 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_c_1 : Ref sig .tc := ⟨.hbm, 16, rfl⟩
abbrev main_call0_c_2 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_call0_c_3 : Ref sig .tc := ⟨.hbm, 24, rfl⟩
abbrev main_call0_v12 : Ref sig .tc := ⟨.hbm, 25, rfl⟩
abbrev main_call0_v13 : Ref sig .tc := ⟨.hbm, 26, rfl⟩
abbrev main_call0_v14 : Ref sig .tc := ⟨.hbm, 27, rfl⟩
abbrev main_call0_cst : Ref sig .tc := ⟨.hbm, 28, rfl⟩
abbrev main_call0_v15 : Ref sig .tc := ⟨.hbm, 29, rfl⟩
abbrev main_v0 : Ref sig .tc := ⟨.hbm, 30, rfl⟩
abbrev main_call1_c : Ref sig .tc := ⟨.hbm, 31, rfl⟩
abbrev main_call1_v0 : Ref sig .tc := ⟨.hbm, 32, rfl⟩
abbrev main_call1_v1 : Ref sig .tc := ⟨.hbm, 33, rfl⟩
abbrev main_call1_c_0 : Ref sig .tc := ⟨.hbm, 34, rfl⟩
abbrev main_call1_v2 : Ref sig .tc := ⟨.hbm, 35, rfl⟩
abbrev main_call1_v3 : Ref sig .tc := ⟨.hbm, 36, rfl⟩
abbrev main_call1_v4 : Ref sig .tc := ⟨.hbm, 37, rfl⟩
abbrev main_call1_v5 : Ref sig .tc := ⟨.hbm, 38, rfl⟩
abbrev main_call1_c_1 : Ref sig .tc := ⟨.hbm, 39, rfl⟩
abbrev main_call1_c_2 : Ref sig .tc := ⟨.hbm, 40, rfl⟩
abbrev main_call1_v6 : Ref sig .tc := ⟨.hbm, 41, rfl⟩
abbrev main_call1_v7 : Ref sig .tc := ⟨.hbm, 42, rfl⟩
abbrev main_call1_v8 : Ref sig .tc := ⟨.hbm, 43, rfl⟩
abbrev main_call1_v9 : Ref sig .tc := ⟨.hbm, 44, rfl⟩
abbrev main_call1_v10 : Ref sig .tc := ⟨.hbm, 45, rfl⟩
abbrev main_call1_v11 : Ref sig .tc := ⟨.hbm, 46, rfl⟩
abbrev main_call1_c_3 : Ref sig .tc := ⟨.hbm, 47, rfl⟩
abbrev main_call1_v12 : Ref sig .tc := ⟨.hbm, 48, rfl⟩
abbrev main_call1_v13 : Ref sig .tc := ⟨.hbm, 49, rfl⟩
abbrev main_call1_v14 : Ref sig .tc := ⟨.hbm, 50, rfl⟩
abbrev main_call1_cst : Ref sig .tc := ⟨.hbm, 51, rfl⟩
abbrev main_call1_v15 : Ref sig .tc := ⟨.hbm, 52, rfl⟩
abbrev main_v1 : Ref sig .tc := ⟨.hbm, 53, rfl⟩
abbrev main_v2 : Ref sig .tc := ⟨.hbm, 54, rfl⟩
abbrev main_v3 : Ref sig .tc := ⟨.hbm, 55, rfl⟩
abbrev main_v4 : Ref sig .tc := ⟨.hbm, 56, rfl⟩
abbrev main_v5 : Ref sig .tc := ⟨.hbm, 57, rfl⟩
abbrev main_v6 : Ref sig .tc := ⟨.hbm, 58, rfl⟩
abbrev main_v7 : Ref sig .tc := ⟨.hbm, 59, rfl⟩
abbrev main_v8 : Ref sig .tc := ⟨.hbm, 60, rfl⟩
abbrev main_v9 : Ref sig .tc := ⟨.hbm, 61, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S6400x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S6400x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  bcast_S_S320000 : S_.BroadcastsInDim S320000 (![] : Fin 0 → Fin S320000.rank)
  bcast_S320000_S320000x1_0 : S320000.BroadcastsInDim S320000x1 (![0] : Fin 1 → Fin S320000x1.rank)
  bcast_S_S320000x1 : S_.BroadcastsInDim S320000x1 (![] : Fin 0 → Fin S320000x1.rank)
  bcast_S1_S1x1_1 : S1.BroadcastsInDim S1x1 (![1] : Fin 1 → Fin S1x1.rank)
  bcast_S1x1_S320000x1_0_1 : S1x1.BroadcastsInDim S320000x1 (![0, 1] : Fin 2 → Fin S320000x1.rank)
  reducesTo_S320000x1_S320000_d1 : S320000x1.ReducesTo [1] S320000
  h_S_ : 0 < S_.numel
  bcast_S320000_S320000x128_0 : S320000.BroadcastsInDim S320000x128 (![0] : Fin 1 → Fin S320000x128.rank)
  bcast_S_S320000x128 : S_.BroadcastsInDim S320000x128 (![] : Fin 0 → Fin S320000x128.rank)
  bitsLt_bf16_f32 : FTy.bits .bf16 < FTy.bits .f32
  shapeCasts_S256_S1x256 : S256.ShapeCasts S1x256
  shapeCasts_S128_S1x128 : S128.ShapeCasts S1x128
  inb_S6400x128_S6400x128_0_0 : ∀ a, (![0, 0] : Fin 2 → Nat) a + S6400x128.size a ≤ S6400x128.size a
  h_S6400x128 : 0 < S6400x128.numel
  shapeCasts_S6400x128_S6400x128 : S6400x128.ShapeCasts S6400x128
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S6400x256 : S1x256.Broadcasts S6400x256
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S6400x128 : S1x128.Broadcasts S6400x128
  gather_S10000x128_S320000x1_S320000x128_1_0_n_n_0_1_1128_wf : GatherDims.WF S10000x128 S320000x1 S320000x128 [1] [0] [] [0] [] 1 ![1, 128]
  dot_S6400x128_S128x256_S6400x256_1_0_0_1_n_n_wf : DotDims.WF S6400x128 S128x256 S6400x256 [1] [0] [0] [1] [] []
  dot_S6400x256_S256x128_S6400x128_1_0_0_1_n_n_wf : DotDims.WF S6400x256 S256x128 S6400x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S6400x128.size a ≤ S320000x128.size a
  hwx0_0 : ∀ i : grid0.Coords, EltTy.bits .bf16 = 32 ∨ (Rect.block (s := S320000x128) S6400x128.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S128x256.size a
  hwx0_1 : ∀ i : grid0.Coords, EltTy.bits .bf16 = 32 ∨ (Rect.block (s := S128x256) S128x256.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x128.size a ≤ S256x128.size a
  hwx0_3 : ∀ i : grid0.Coords, EltTy.bits .bf16 = 32 ∨ (Rect.block (s := S256x128) S256x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S6400x128.size a ≤ S320000x128.size a
  hwx0_5 : ∀ i : grid0.Coords, EltTy.bits .f32 = 32 ∨ (Rect.block (s := S320000x128) S6400x128.size (cc0_transform_5 i) (hinb0_5 i)).WholeWords (EltTy.packing .f32)

variable [Facts₀]

def gather_S10000x128_S320000x1_S320000x128_1_0_n_n_0_1_1128 : GatherDims S10000x128 S320000x1 S320000x128 where
  offsetDims := [1]
  collapsedSliceDims := [0]
  operandBatchingDims := []
  startIndicesBatchingDims := []
  startIndexMap := [0]
  indexVectorDim := 1
  sliceSizes := ![1, 128]
  wf := gather_S10000x128_S320000x1_S320000x128_1_0_n_n_0_1_1128_wf
def dot_S6400x128_S128x256_S6400x256_1_0_0_1_n_n : DotDims S6400x128 S128x256 S6400x256 where
  lhsContracting := [1]
  rhsContracting := [0]
  lhsNonContracting := [0]
  rhsNonContracting := [1]
  lhsBatch := []
  rhsBatch := []
  wf := dot_S6400x128_S128x256_S6400x256_1_0_0_1_n_n_wf
def dot_S6400x256_S256x128_S6400x128_1_0_0_1_n_n : DotDims S6400x256 S256x128 S6400x128 where
  lhsContracting := [1]
  rhsContracting := [0]
  lhsNonContracting := [0]
  rhsNonContracting := [1]
  lhsBatch := []
  rhsBatch := []
  wf := dot_S6400x256_S256x128_S6400x128_1_0_0_1_n_n_wf

abbrev win0_0 : Pipeline.Window sig grid0 :=
  Pipeline.Window.ofSpec (Memref.whole main_v4) S6400x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S128x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v7) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6) S256x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v8) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v9) S6400x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S320000 : Shape := ⟨1, ![320000]⟩
abbrev S10000x128 : Shape := ⟨2, ![10000, 128]⟩
abbrev S320000x128 : Shape := ⟨2, ![320000, 128]⟩
abbrev S128x256 : Shape := ⟨2, ![128, 256]⟩
abbrev S256 : Shape := ⟨1, ![256]⟩
abbrev S256x128 : Shape := ⟨2, ![256, 128]⟩
abbrev S128 : Shape := ⟨1, ![128]⟩
abbrev S_ : Shape := ⟨0, ![]⟩
abbrev S320000x1 : Shape := ⟨2, ![320000, 1]⟩
abbrev S320000x256 : Shape := ⟨2, ![320000, 256]⟩
abbrev S1x256 : Shape := ⟨2, ![1, 256]⟩
abbrev S1x128 : Shape := ⟨2, ![1, 128]⟩

abbrev nBuf : Space → Nat
  | .hbm => 37
  | .vmem => 0
  | .smem => 0
  | _ => 0

abbrev bufTy : (tb : Table) → Fin (tcTables nBuf tb) → BufTy
  | .hbm, ⟨0, _⟩ => ⟨S320000, .i32⟩
  | .hbm, ⟨1, _⟩ => ⟨S320000, .i32⟩
  | .hbm, ⟨2, _⟩ => ⟨S10000x128, .f32⟩
  | .hbm, ⟨3, _⟩ => ⟨S320000x128, .f32⟩
  | .hbm, ⟨4, _⟩ => ⟨S128x256, .f32⟩
  | .hbm, ⟨5, _⟩ => ⟨S256, .f32⟩
  | .hbm, ⟨6, _⟩ => ⟨S256x128, .f32⟩
  | .hbm, ⟨7, _⟩ => ⟨S128, .f32⟩
  | .hbm, ⟨8, _⟩ => ⟨S_, .i32⟩
  | .hbm, ⟨9, _⟩ => ⟨S320000, .i32⟩
  | .hbm, ⟨10, _⟩ => ⟨S320000, .i1⟩
  | .hbm, ⟨11, _⟩ => ⟨S_, .i32⟩
  | .hbm, ⟨12, _⟩ => ⟨S320000, .i32⟩
  | .hbm, ⟨13, _⟩ => ⟨S320000, .i32⟩
  | .hbm, ⟨14, _⟩ => ⟨S320000, .i32⟩
  | .hbm, ⟨15, _⟩ => ⟨S320000x1, .i32⟩
  | .hbm, ⟨16, _⟩ => ⟨S320000x128, .f32⟩
  | .hbm, ⟨17, _⟩ => ⟨S320000x128, .f32⟩
  | .hbm, ⟨18, _⟩ => ⟨S_, .i32⟩
  | .hbm, ⟨19, _⟩ => ⟨S320000, .i32⟩
  | .hbm, ⟨20, _⟩ => ⟨S320000, .i1⟩
  | .hbm, ⟨21, _⟩ => ⟨S_, .i32⟩
  | .hbm, ⟨22, _⟩ => ⟨S320000, .i32⟩
  | .hbm, ⟨23, _⟩ => ⟨S320000, .i32⟩
  | .hbm, ⟨24, _⟩ => ⟨S320000, .i32⟩
  | .hbm, ⟨25, _⟩ => ⟨S320000x1, .i32⟩
  | .hbm, ⟨26, _⟩ => ⟨S320000x128, .f32⟩
  | .hbm, ⟨27, _⟩ => ⟨S320000x128, .f32⟩
  | .hbm, ⟨28, _⟩ => ⟨S320000x256, .f32⟩
  | .hbm, ⟨29, _⟩ => ⟨S1x256, .f32⟩
  | .hbm, ⟨30, _⟩ => ⟨S320000x256, .f32⟩
  | .hbm, ⟨31, _⟩ => ⟨S320000x256, .f32⟩
  | .hbm, ⟨32, _⟩ => ⟨S320000x256, .f32⟩
  | .hbm, ⟨33, _⟩ => ⟨S320000x128, .f32⟩
  | .hbm, ⟨34, _⟩ => ⟨S1x128, .f32⟩
  | .hbm, ⟨35, _⟩ => ⟨S320000x128, .f32⟩
  | .hbm, ⟨36, _⟩ => ⟨S320000x128, .f32⟩
  | _, _ => ⟨S320000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_c_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_c_1 : Ref sig .tc := ⟨.hbm, 18, rfl⟩
abbrev main_v8 : Ref sig .tc := ⟨.hbm, 19, rfl⟩
abbrev main_v9 : Ref sig .tc := ⟨.hbm, 20, rfl⟩
abbrev main_c_2 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩

abbrev nD : Nat := 1
abbrev τ : Topo := Topo.v7x

variable {F : FTy → Type} [FloatOps F]

class Facts₀ : Prop where
  bcast_S_S320000 : S_.BroadcastsInDim S320000 (![] : Fin 0 → Fin S320000.rank)
  bcast_S320000_S320000x1_0 : S320000.BroadcastsInDim S320000x1 (![0] : Fin 1 → Fin S320000x1.rank)
  bcast_S256_S1x256_1 : S256.BroadcastsInDim S1x256 (![1] : Fin 1 → Fin S1x256.rank)
  bcast_S1x256_S320000x256_0_1 : S1x256.BroadcastsInDim S320000x256 (![0, 1] : Fin 2 → Fin S320000x256.rank)
  bcast_S128_S1x128_1 : S128.BroadcastsInDim S1x128 (![1] : Fin 1 → Fin S1x128.rank)
  bcast_S1x128_S320000x128_0_1 : S1x128.BroadcastsInDim S320000x128 (![0, 1] : Fin 2 → Fin S320000x128.rank)
  gather_S10000x128_S320000x1_S320000x128_1_0_n_n_0_1_1128_wf : GatherDims.WF S10000x128 S320000x1 S320000x128 [1] [0] [] [0] [] 1 ![1, 128]
  dot_S320000x128_S128x256_S320000x256_1_0_0_1_n_n_wf : DotDims.WF S320000x128 S128x256 S320000x256 [1] [0] [0] [1] [] []
  dot_S320000x256_S256x128_S320000x128_1_0_0_1_n_n_wf : DotDims.WF S320000x256 S256x128 S320000x128 [1] [0] [0] [1] [] []

variable [Facts₀]

def gather_S10000x128_S320000x1_S320000x128_1_0_n_n_0_1_1128 : GatherDims S10000x128 S320000x1 S320000x128 where
  offsetDims := [1]
  collapsedSliceDims := [0]
  operandBatchingDims := []
  startIndicesBatchingDims := []
  startIndexMap := [0]
  indexVectorDim := 1
  sliceSizes := ![1, 128]
  wf := gather_S10000x128_S320000x1_S320000x128_1_0_n_n_0_1_1128_wf
def dot_S320000x128_S128x256_S320000x256_1_0_0_1_n_n : DotDims S320000x128 S128x256 S320000x256 where
  lhsContracting := [1]
  rhsContracting := [0]
  lhsNonContracting := [0]
  rhsNonContracting := [1]
  lhsBatch := []
  rhsBatch := []
  wf := dot_S320000x128_S128x256_S320000x256_1_0_0_1_n_n_wf
def dot_S320000x256_S256x128_S320000x128_1_0_0_1_n_n : DotDims S320000x256 S256x128 S320000x128 where
  lhsContracting := [1]
  rhsContracting := [0]
  lhsNonContracting := [0]
  rhsNonContracting := [1]
  lhsBatch := []
  rhsBatch := []
  wf := dot_S320000x256_S256x128_S320000x128_1_0_0_1_n_n_wf

class Facts : Prop extends Facts₀ where

variable [Facts]
-- ==== Proof.Words.lean ====
/-
  Index words of a table of 10000 rows.

  jnp reads a row index as a signed 32-bit word. Indexing first steps a negative word up by the table's length; a take
  in fill mode then keeps a row only if the stepped word lies in [0, 9999]. For a word that already reads inside
  [0, 10000) the step does nothing and the range test passes. Also: an `and`-reduction of an all-ones mask is one.
-/
import Idealize.ShloMosaic.Lib.StableHlo.Predicate
import Idealize.ShloMosaic.Lib.ReduceAll

namespace Cert.EdgeMlp

open Idealize.ShloMosaic Idealize.ShloMosaic.StableHlo.Predicate

/-- jnp's normalisation of a row index into a table of 10000 rows: a negative word is stepped up by 10000. -/
def wrap (w : BitVec 32) : BitVec 32 := Scalar.select (IntOp.cmpi .slt w 0#32) (IntOp.addi w 10000#32) w

/-- A word that is at least 0 and below 10000 as a signed integer is below 10000 as a natural number. -/
theorem toNat_lt_of_signed_range (w : BitVec 32) (h0 : IntOp.cmpi .sge w 0#32 = 1#1) (h1 : IntOp.cmpi .slt w 10000#32 = 1#1) :
    w.toNat < 10000 := by
  unfold IntOp.cmpi at h0 h1
  rw [ofBool_eq_one_iff] at h0 h1
  simp only [BitVec.slt, BitVec.sle, decide_eq_true_eq] at h0 h1
  have e0 : (0#32 : BitVec 32).toInt = 0 := by decide
  have e1 : (10000#32 : BitVec 32).toInt = 10000 := by decide
  rw [e0] at h0
  rw [e1] at h1
  rw [BitVec.toInt_eq_toNat_cond] at h0 h1
  have := w.isLt
  split at h0 <;> omega

/-- Such a word is not negative, so the normalisation leaves it alone. -/
theorem wrap_of_lt (w : BitVec 32) (hw : w.toNat < 10000) : wrap w = w := by
  have hn : ¬ IntOp.cmpi .slt w 0#32 = 1#1 := fun h => by
    rw [slt_iff_toNat (by omega) (by decide)] at h
    simp at h
  unfold wrap Scalar.select
  exact if_neg hn

/-- It passes the lower range test of a fill-mode take. -/
theorem sge_zero_of_lt (w : BitVec 32) (hw : w.toNat < 10000) : IntOp.cmpi .sge w 0#32 = 1#1 :=
  (sge_iff_toNat (by omega) (by decide)).2 (by simp)

/-- It passes the upper range test: at most the last row, 9999. -/
theorem sle_last_of_lt (w : BitVec 32) (hw : w.toNat < 10000) : IntOp.cmpi .sle w 9999#32 = 1#1 :=
  (sle_iff_toNat (by omega) (by decide)).2 (by
    have : (9999#32 : BitVec 32).toNat = 9999 := by decide
    omega)

/-- A left fold by `and` from 1 over ones is 1. -/
theorem foldl_andi_ones {ι : Type} (f : ι → BitVec 1) :
    ∀ l : List ι, (∀ n ∈ l, f n = 1#1) → l.foldl (fun r n => IntOp.andi r (f n)) 1#1 = 1#1
  | [], _ => rfl
  | a :: l, h => by
    rw [List.foldl_cons, h a (List.mem_cons_self), show IntOp.andi 1#1 1#1 = (1#1 : BitVec 1) from by decide]
    exact foldl_andi_ones f l fun n hn => h n (List.mem_cons_of_mem _ hn)

/-- A `stablehlo.reduce` by `and` from the constant one over a mask of ones is one everywhere. -/
theorem reduce_andi_ones {s t u : Shape} {axes : List (Fin s.rank)} (x : s.Idx → BitVec 1) (init : u.Idx → BitVec 1)
    (h : s.ReducesTo axes t) (hu : 0 < u.numel) (hinit : init (Shape.Idx.first hu) = 1#1) (hx : ∀ i, x i = 1#1) (j : t.Idx) :
    Host.reduce IntOp.andi x init h hu j = 1#1 := by
  rw [Host.reduce_eq_foldl, hinit]
  exact foldl_andi_ones x _ fun n _ => hx n

end Cert.EdgeMlp
-- ==== Proof.Spec.lean ====
/-
  The function both programs compute, over the extended reals.

  For edge e the input row is the sum of two gathered rows of the node table and the edge's own row of the basis,
      x e k = P (row i_e) k + P (row j_e) k + B e k,
  and the result is a two-layer perceptron applied to that row,
      out e q = (∑ j < 256, tanh ((∑ k < 128, x e k · W1 k j) + b1 j) · W2 j q) + b2 q.
  A gathered row is read at the index word normalised jnp's way (a negative word stepped up by the table's length),
  taken as a signed integer and clamped into the table, which is how a host gather reads it.
-/
import Idealize.ShloMosaic.PureOps.Ideal
import Idealize.ShloMosaic.Lib.ValueIdx
import proofs.«430305_j12532714569873_2_alg».proof.Proof.Words

noncomputable section

namespace Cert.EdgeMlp

open Idealize.ShloMosaic Idealize.ShloMosaic.ValueIdx

/-- The perceptron on row `p` of an n-row input, at output column `q`. It reads `x` only on row `p`. -/
def mlpAt {n : Nat} (x : Fin n → Fin 128 → EReal) (w1 : Fin 128 → Fin 256 → EReal) (b1 : Fin 256 → EReal)
    (w2 : Fin 256 → Fin 128 → EReal) (b2 : Fin 128 → EReal) (p : Fin n) (q : Fin 128) : EReal :=
  (∑ j : Fin 256, Ideal.tanh ((∑ k : Fin 128, x p k * w1 k j) + b1 j) * w2 j q) + b2 q

/-- The row of the 10000-row table a word names: its signed value clamped into [0, 9999]. -/
def row (w : BitVec 32) : Fin 10000 := ⟨min w.toInt.toNat (10000 - 1), by omega⟩

/-- Element (e, k) of the rows gathered from the table `P` by the index words `idx`. -/
def gathered (P : (⟨2, ![10000, 128]⟩ : Shape).Idx → EReal) (idx : (⟨1, ![320000]⟩ : Shape).Idx → BitVec 32)
    (e : Fin 320000) (k : Fin 128) : EReal :=
  P (ix2 (row (wrap (idx (ix1 e)))) k)

/-- The perceptron's input: the two gathered rows and the basis row added. -/
def edgeIn (idxI idxJ : (⟨1, ![320000]⟩ : Shape).Idx → BitVec 32) (P : (⟨2, ![10000, 128]⟩ : Shape).Idx → EReal)
    (B : (⟨2, ![320000, 128]⟩ : Shape).Idx → EReal) (e : Fin 320000) (k : Fin 128) : EReal :=
  gathered P idxI e k + gathered P idxJ e k + B (ix2 e k)

/-- The whole result array as one function of the eight argument arrays. -/
def result (idxI idxJ : (⟨1, ![320000]⟩ : Shape).Idx → BitVec 32) (P : (⟨2, ![10000, 128]⟩ : Shape).Idx → EReal)
    (B : (⟨2, ![320000, 128]⟩ : Shape).Idx → EReal) (W1 : (⟨2, ![128, 256]⟩ : Shape).Idx → EReal)
    (b1 : (⟨1, ![256]⟩ : Shape).Idx → EReal) (W2 : (⟨2, ![256, 128]⟩ : Shape).Idx → EReal)
    (b2 : (⟨1, ![128]⟩ : Shape).Idx → EReal) : (⟨2, ![320000, 128]⟩ : Shape).Idx → EReal :=
  fun i => mlpAt (edgeIn idxI idxJ P B) (fun k j => W1 (ix2 k j)) (fun j => b1 (ix1 j)) (fun j q => W2 (ix2 j q))
    (fun q => b2 (ix1 q)) (i 0) (i 1)

/-- The perceptron's value on a row depends on the input only through that row. -/
theorem mlpAt_congr {n n' : Nat} (x : Fin n → Fin 128 → EReal) (x' : Fin n' → Fin 128 → EReal) (w1 : Fin 128 → Fin 256 → EReal)
    (b1 : Fin 256 → EReal) (w2 : Fin 256 → Fin 128 → EReal) (b2 : Fin 128 → EReal) (p : Fin n) (p' : Fin n') (q : Fin 128)
    (h : ∀ k, x p k = x' p' k) : mlpAt x w1 b1 w2 b2 p q = mlpAt x' w1 b1 w2 b2 p' q := by
  unfold mlpAt
  simp only [h]

end Cert.EdgeMlp

end
-- ==== Proof.Payload.lean ====
/-
  What the kernel body stores, at one element.

  The body loads an input block x [6400 × 128], the first weights w1 [128 × 256], the first bias b1 [1 × 256], the second
  weights w2 [256 × 128] and the second bias b2 [1 × 128], and stores
      (tanh (x · w1 + b1)) · w2 + b2
  with both products accumulated from zero. Over the extended reals a change of float format is the identity and a
  matrix product into a zero accumulator is the plain sum over the contracted axis, so element (p, q) of the stored
  block is the perceptron of row p of x at column q.
-/
import proofs.«430305_j12532714569873_2_alg».proof.Proof.Gen.KernelIdeal.Skeleton
import proofs.«430305_j12532714569873_2_alg».proof.Proof.Spec
import Idealize.ShloMosaic.Lib.Pipeline.Value
import Idealize.ShloMosaic.Lib.ValueIdx
import Idealize.ShloMosaic.PureOps.Ideal.Laws

noncomputable section

namespace Cert.EdgeMlp.Body

open Cert.KernelIdeal Cert.KernelIdeal.Gen Idealize.ShloMosaic Idealize.ShloMosaic.ValueIdx Cert.EdgeMlp

/-- A [1 × m] row broadcast down n rows reads, at (p, j), the row at (0, j). -/
theorem bcastRow_apply {α : Type} {n m : Nat} (hm : m ≠ 1) (x : (⟨2, ![1, m]⟩ : Shape).Idx → α)
    (h : (⟨2, ![1, m]⟩ : Shape).Broadcasts ⟨2, ![n, m]⟩) (p : Fin n) (j : Fin m) :
    broadcastTo ⟨2, ![n, m]⟩ x h (ix2 p j) = x (ix2 (0 : Fin 1) j) :=
  broadcastTo_apply x h (ix2 p j) (ix2 (0 : Fin 1) j) (fun a => match a with
    | ⟨0, _⟩ => by show 0 = if (1 : Nat) = 1 then 0 else _; rw [if_pos rfl]
    | ⟨1, _⟩ => by show j.val = if m = 1 then 0 else j.val; rw [if_neg hm])

/-! ### The first product: [6400 × 128] by [128 × 256] -/

theorem lhs_first_0 (i : S6400x256.Idx) (q : dot_S6400x128_S128x256_S6400x256_1_0_0_1_n_n.contr.Idx) :
    (dot_S6400x128_S128x256_S6400x256_1_0_0_1_n_n.lhsIdx i q 0).val = (i 0).val := by
  unfold DotDims.lhsIdx
  rw [dif_neg (show ¬(0 : Fin S6400x128.rank) ∈ dot_S6400x128_S128x256_S6400x256_1_0_0_1_n_n.lhsBatch by decide), dif_pos (show (0 : Fin S6400x128.rank) ∈ dot_S6400x128_S128x256_S6400x256_1_0_0_1_n_n.lhsNonContracting by decide)]
  rfl
theorem lhs_first_1 (i : S6400x256.Idx) (q : dot_S6400x128_S128x256_S6400x256_1_0_0_1_n_n.contr.Idx) :
    (dot_S6400x128_S128x256_S6400x256_1_0_0_1_n_n.lhsIdx i q 1).val = (q ⟨0, by decide⟩).val :=
  dot_S6400x128_S128x256_S6400x256_1_0_0_1_n_n.lhsIdx_val_of_single rfl i q
theorem rhs_first_0 (i : S6400x256.Idx) (q : dot_S6400x128_S128x256_S6400x256_1_0_0_1_n_n.contr.Idx) :
    (dot_S6400x128_S128x256_S6400x256_1_0_0_1_n_n.rhsIdx i q 0).val = (q ⟨0, by decide⟩).val :=
  dot_S6400x128_S128x256_S6400x256_1_0_0_1_n_n.rhsIdx_val_of_single rfl i q
theorem rhs_first_1 (i : S6400x256.Idx) (q : dot_S6400x128_S128x256_S6400x256_1_0_0_1_n_n.contr.Idx) :
    (dot_S6400x128_S128x256_S6400x256_1_0_0_1_n_n.rhsIdx i q 1).val = (i 1).val := by
  unfold DotDims.rhsIdx
  rw [dif_neg (show ¬(1 : Fin S128x256.rank) ∈ dot_S6400x128_S128x256_S6400x256_1_0_0_1_n_n.rhsBatch by decide), dif_pos (show (1 : Fin S128x256.rank) ∈ dot_S6400x128_S128x256_S6400x256_1_0_0_1_n_n.rhsNonContracting by decide)]
  rfl

/-- Element (p, j) of the first product from zero is the sum over k of x (p, k) · w1 (k, j). -/
theorem first_apply (l : FVec Ideal S6400x128 .bf16) (r : FVec Ideal S128x256 .bf16) (p : Fin 6400) (j : Fin 256) :
    matmul dot_S6400x128_S128x256_S6400x256_1_0_0_1_n_n none l r (constant S6400x256 .f32 0x00000000#32) (ix2 p j)
      = ∑ k : Fin 128, l (ix2 p k) * r (ix2 k j) := by
  simp only [matmul]
  rw [Ideal.matmul_constant_zero_apply, ← Equiv.sum_comp (contrEquiv1 dot_S6400x128_S128x256_S6400x256_1_0_0_1_n_n 128 rfl rfl).symm]
  refine Finset.sum_congr rfl fun k _ => ?_
  have hk := contrEquiv1_symm_val dot_S6400x128_S128x256_S6400x256_1_0_0_1_n_n 128 rfl rfl k
  have el : dot_S6400x128_S128x256_S6400x256_1_0_0_1_n_n.lhsIdx (ix2 p j) ((contrEquiv1 dot_S6400x128_S128x256_S6400x256_1_0_0_1_n_n 128 rfl rfl).symm k) = ix2 p k := funext fun a => Fin.ext (by
    match a with
    | ⟨0, _⟩ => exact lhs_first_0 _ _
    | ⟨1, _⟩ => exact (lhs_first_1 _ _).trans hk)
  have er : dot_S6400x128_S128x256_S6400x256_1_0_0_1_n_n.rhsIdx (ix2 p j) ((contrEquiv1 dot_S6400x128_S128x256_S6400x256_1_0_0_1_n_n 128 rfl rfl).symm k) = ix2 k j := funext fun a => Fin.ext (by
    match a with
    | ⟨0, _⟩ => exact (rhs_first_0 _ _).trans hk
    | ⟨1, _⟩ => exact rhs_first_1 _ _)
  rw [el, er]

/-! ### The second product: [6400 × 256] by [256 × 128] -/

theorem lhs_second_0 (i : S6400x128.Idx) (q : dot_S6400x256_S256x128_S6400x128_1_0_0_1_n_n.contr.Idx) :
    (dot_S6400x256_S256x128_S6400x128_1_0_0_1_n_n.lhsIdx i q 0).val = (i 0).val := by
  unfold DotDims.lhsIdx
  rw [dif_neg (show ¬(0 : Fin S6400x256.rank) ∈ dot_S6400x256_S256x128_S6400x128_1_0_0_1_n_n.lhsBatch by decide), dif_pos (show (0 : Fin S6400x256.rank) ∈ dot_S6400x256_S256x128_S6400x128_1_0_0_1_n_n.lhsNonContracting by decide)]
  rfl
theorem lhs_second_1 (i : S6400x128.Idx) (q : dot_S6400x256_S256x128_S6400x128_1_0_0_1_n_n.contr.Idx) :
    (dot_S6400x256_S256x128_S6400x128_1_0_0_1_n_n.lhsIdx i q 1).val = (q ⟨0, by decide⟩).val :=
  dot_S6400x256_S256x128_S6400x128_1_0_0_1_n_n.lhsIdx_val_of_single rfl i q
theorem rhs_second_0 (i : S6400x128.Idx) (q : dot_S6400x256_S256x128_S6400x128_1_0_0_1_n_n.contr.Idx) :
    (dot_S6400x256_S256x128_S6400x128_1_0_0_1_n_n.rhsIdx i q 0).val = (q ⟨0, by decide⟩).val :=
  dot_S6400x256_S256x128_S6400x128_1_0_0_1_n_n.rhsIdx_val_of_single rfl i q
theorem rhs_second_1 (i : S6400x128.Idx) (q : dot_S6400x256_S256x128_S6400x128_1_0_0_1_n_n.contr.Idx) :
    (dot_S6400x256_S256x128_S6400x128_1_0_0_1_n_n.rhsIdx i q 1).val = (i 1).val := by
  unfold DotDims.rhsIdx
  rw [dif_neg (show ¬(1 : Fin S256x128.rank) ∈ dot_S6400x256_S256x128_S6400x128_1_0_0_1_n_n.rhsBatch by decide), dif_pos (show (1 : Fin S256x128.rank) ∈ dot_S6400x256_S256x128_S6400x128_1_0_0_1_n_n.rhsNonContracting by decide)]
  rfl

/-- Element (p, q) of the second product from zero is the sum over j of h (p, j) · w2 (j, q). -/
theorem second_apply (l : FVec Ideal S6400x256 .bf16) (r : FVec Ideal S256x128 .bf16) (p : Fin 6400) (q : Fin 128) :
    matmul dot_S6400x256_S256x128_S6400x128_1_0_0_1_n_n none l r (constant S6400x128 .f32 0x00000000#32) (ix2 p q)
      = ∑ j : Fin 256, l (ix2 p j) * r (ix2 j q) := by
  simp only [matmul]
  rw [Ideal.matmul_constant_zero_apply, ← Equiv.sum_comp (contrEquiv1 dot_S6400x256_S256x128_S6400x128_1_0_0_1_n_n 256 rfl rfl).symm]
  refine Finset.sum_congr rfl fun k _ => ?_
  have hk := contrEquiv1_symm_val dot_S6400x256_S256x128_S6400x128_1_0_0_1_n_n 256 rfl rfl k
  have el : dot_S6400x256_S256x128_S6400x128_1_0_0_1_n_n.lhsIdx (ix2 p q) ((contrEquiv1 dot_S6400x256_S256x128_S6400x128_1_0_0_1_n_n 256 rfl rfl).symm k) = ix2 p k := funext fun a => Fin.ext (by
    match a with
    | ⟨0, _⟩ => exact lhs_second_0 _ _
    | ⟨1, _⟩ => exact (lhs_second_1 _ _).trans hk)
  have er : dot_S6400x256_S256x128_S6400x128_1_0_0_1_n_n.rhsIdx (ix2 p q) ((contrEquiv1 dot_S6400x256_S256x128_S6400x128_1_0_0_1_n_n 256 rfl rfl).symm k) = ix2 k q := funext fun a => Fin.ext (by
    match a with
    | ⟨0, _⟩ => exact (rhs_second_0 _ _).trans hk
    | ⟨1, _⟩ => exact rhs_second_1 _ _)
  rw [el, er]

/-! ### The stored block -/

/-- Element (p, q) of what the body stores is the perceptron of row p of the input block at column q. -/
theorem pay_apply (x0 : Vec Ideal S6400x128 .bf16) (x1 : Vec Ideal S128x256 .bf16) (x2 : Vec Ideal S1x256 .f32)
    (x3 : Vec Ideal S256x128 .bf16) (x4 : Vec Ideal S1x128 .f32) (p : Fin 6400) (q : Fin 128) :
    k0_pay1 (F := Ideal) x0 x1 x2 x3 x4 (ix2 p q)
      = mlpAt (fun a k => x0 (ix2 a k)) (fun k j => x1 (ix2 k j)) (fun j => x2 (ix2 (0 : Fin 1) j)) (fun j q => x3 (ix2 j q))
          (fun q => x4 (ix2 (0 : Fin 1) q)) p q := by
  unfold k0_pay1
  simp only [shapeCast_self]
  rw [addf_apply, second_apply, bcastRow_apply (by decide)]
  unfold mlpAt
  congr 1
  refine Finset.sum_congr rfl fun j _ => ?_
  congr 1
  show Ideal.tanh (_ + _) = _
  rw [first_apply, bcastRow_apply (by decide)]

end Cert.EdgeMlp.Body

end
-- ==== Proof.KernelValue.lean ====
/-
  The kernel's result array after the run, as one function of the arrays its region is launched on.

  The grid has 50 points; point t reads rows 6400·t … 6400·t + 6399 of the input array and the whole of the two weight
  matrices and the two bias rows, and writes rows 6400·t … 6400·t + 6399 of the result. The perceptron acts row by row,
  so what point t writes back is block t of the perceptron applied to the whole input array; the 50 blocks tile the
  result, which therefore ends holding that array.
-/
import proofs.«430305_j12532714569873_2_alg».proof.Proof.Gen.KernelIdeal.Value
import proofs.«430305_j12532714569873_2_alg».proof.Proof.Payload
import Idealize.ShloMosaic.Lib.Pipeline.Value
import Idealize.ShloMosaic.Lib.Tactic

set_option maxRecDepth 16384

noncomputable section

namespace Cert.EdgeMlp.Kernel

open Cert.KernelIdeal Cert.KernelIdeal.Gen Cert.KernelIdeal.Value Idealize.ShloMosaic Idealize.ShloMosaic.TcCoe Idealize.SL.Sem
open Idealize.ShloMosaic.ValueIdx Cert.EdgeMlp
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The perceptron applied to every row of an input array X with weights W1, W2 and bias rows B1, B2. -/
def rowsOut (X : S320000x128.Idx → EReal) (W1 : S128x256.Idx → EReal) (B1 : S1x256.Idx → EReal) (W2 : S256x128.Idx → EReal)
    (B2 : S1x128.Idx → EReal) : S320000x128.Idx → EReal := fun i =>
  mlpAt (fun e k => X (ix2 e k)) (fun k j => W1 (ix2 k j)) (fun j => B1 (ix2 (0 : Fin 1) j)) (fun j q => W2 (ix2 j q))
    (fun q => B2 (ix2 (0 : Fin 1) q)) (i 0) (i 1)

/-- What the body stores at element y of its block is the perceptron of the whole array at the element's place i, when
    row y₀ of the input block is row i₀ of the array and the other blocks are the whole arrays. -/
theorem block_apply (x0 : Vec Ideal S6400x128 .bf16) (x1 : Vec Ideal S128x256 .bf16) (x2 : Vec Ideal S1x256 .f32)
    (x3 : Vec Ideal S256x128 .bf16) (x4 : Vec Ideal S1x128 .f32) (X : S320000x128.Idx → EReal) (W1 : S128x256.Idx → EReal)
    (B1 : S1x256.Idx → EReal) (W2 : S256x128.Idx → EReal) (B2 : S1x128.Idx → EReal) (y : S6400x128.Idx) (i : S320000x128.Idx)
    (h0 : ∀ k : Fin 128, x0 (ix2 (y 0) k) = X (ix2 (i 0) k)) (h1 : x1 = W1) (h2 : x2 = B1) (h3 : x3 = W2) (h4 : x4 = B2)
    (hq : (y 1).val = (i 1).val) :
    k0_pay1 (F := Ideal) x0 x1 x2 x3 x4 y = rowsOut X W1 B1 W2 B2 i := by
  subst h1 h2 h3 h4
  obtain ⟨p, q, rfl⟩ : ∃ (p : Fin 6400) (q : Fin 128), y = ix2 p q := ⟨y 0, y 1, eq_ix2 y⟩
  rw [Body.pay_apply]
  unfold rowsOut
  have hq' : i 1 = q := Fin.ext hq.symm
  rw [hq']
  exact mlpAt_congr _ _ _ _ _ _ p (i 0) q h0

/-- The array the perceptron is applied to: the region-entry arrays of the five input windows. -/
def regionOut (c : Dev nD) : S320000x128.Idx → EReal :=
  rowsOut (V m c main_v4) (V m c main_v5) (V m c main_v7) (V m c main_v6) (V m c main_v8)

/-- Where each window's block sits at point t: the input's and the result's at block row t, the others at the origin. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Row p of the input block at point t is row 6400·t + p of the input array. -/
theorem blk_in (c : Dev nD) (t : Fin cfg0.N) (p : Fin 6400) (k : Fin 128) (i0 : Fin 320000) (hi : i0.val = t.val * 6400 + p.val) :
    (iblk m c 0 t : Vec Ideal S6400x128 .bf16) (ix2 p k) = V m c main_v4 (ix2 i0 k) := by
  obtain ⟨e0, e1, -⟩ := idx_facts t
  show V m c main_v4 (((cfg0.win 0).blk t).view.emb (ix2 p k)) = V m c main_v4 (ix2 i0 k)
  congr 1
  funext a
  apply Fin.ext
  match a with
  | ⟨0, _⟩ => show win0_0.index t (0 : Fin 2) * 6400 + 1 * p.val = i0.val; omega
  | ⟨1, _⟩ => show win0_0.index t (1 : Fin 2) * 128 + 1 * k.val = k.val; omega

/-- The first weights' block at every point is the whole array. -/
theorem blk_w1 (c : Dev nD) (t : Fin cfg0.N) : (iblk m c 1 t : Vec Ideal S128x256 .bf16) = V m c main_v5 := by
  obtain ⟨-, -, e2, e3, -⟩ := idx_facts t
  funext z
  show V m c main_v5 (((cfg0.win 1).blk t).view.emb z) = V m c main_v5 z
  congr 1
  funext a
  apply Fin.ext
  match a with
  | ⟨0, _⟩ => show win0_1.index t (0 : Fin 2) * 128 + 1 * (z 0).val = (z 0).val; omega
  | ⟨1, _⟩ => show win0_1.index t (1 : Fin 2) * 256 + 1 * (z 1).val = (z 1).val; omega

/-- The first bias row's block at every point is the whole row. -/
theorem blk_b1 (c : Dev nD) (t : Fin cfg0.N) : (iblk m c 2 t : Vec Ideal S1x256 .f32) = V m c main_v7 := by
  obtain ⟨-, -, -, -, e4, e5, -⟩ := idx_facts t
  funext z
  show V m c main_v7 (((cfg0.win 2).blk t).view.emb z) = V m c main_v7 z
  congr 1
  funext a
  apply Fin.ext
  match a with
  | ⟨0, _⟩ => show win0_2.index t (0 : Fin 2) * 1 + 1 * (z 0).val = (z 0).val; omega
  | ⟨1, _⟩ => show win0_2.index t (1 : Fin 2) * 256 + 1 * (z 1).val = (z 1).val; omega

/-- The second weights' block at every point is the whole array. -/
theorem blk_w2 (c : Dev nD) (t : Fin cfg0.N) : (iblk m c 3 t : Vec Ideal S256x128 .bf16) = V m c main_v6 := by
  obtain ⟨-, -, -, -, -, -, e6, e7, -⟩ := idx_facts t
  funext z
  show V m c main_v6 (((cfg0.win 3).blk t).view.emb z) = V m c main_v6 z
  congr 1
  funext a
  apply Fin.ext
  match a with
  | ⟨0, _⟩ => show win0_3.index t (0 : Fin 2) * 256 + 1 * (z 0).val = (z 0).val; omega
  | ⟨1, _⟩ => show win0_3.index t (1 : Fin 2) * 128 + 1 * (z 1).val = (z 1).val; omega

/-- The second bias row's block at every point is the whole row. -/
theorem blk_b2 (c : Dev nD) (t : Fin cfg0.N) : (iblk m c 4 t : Vec Ideal S1x128 .f32) = V m c main_v8 := by
  obtain ⟨-, -, -, -, -, -, -, -, e8, e9, -⟩ := idx_facts t
  funext z
  show V m c main_v8 (((cfg0.win 4).blk t).view.emb z) = V m c main_v8 z
  congr 1
  funext a
  apply Fin.ext
  match a with
  | ⟨0, _⟩ => show win0_4.index t (0 : Fin 2) * 1 + 1 * (z 0).val = (z 0).val; omega
  | ⟨1, _⟩ => show win0_4.index t (1 : Fin 2) * 128 + 1 * (z 1).val = (z 1).val; omega

/-- What point t writes back is block t of the perceptron applied to the whole region-entry input. -/
theorem flushed_eq (c : Dev nD) (t : Fin cfg0.N) :
    (dats m 0 c).flushed 5 t = ((cfg0.win 5).blk t).view.read (Elt Ideal) (regionOut m c) := by
  rw [flushed5]
  unfold out0_5
  rw [View.canon_unit_zero hz]
  simp only [View.ld_unit_zero (S := S6400x128) hz, View.ld_unit_zero (S := S128x256) hz, View.ld_unit_zero (S := S1x256) hz,
    View.ld_unit_zero (S := S256x128) hz, View.ld_unit_zero (S := S1x128) hz]
  funext y
  obtain ⟨-, -, -, -, -, -, -, -, -, -, e10, e11⟩ := idx_facts t
  show k0_pay1 (F := Ideal) (iblk m c 0 t) (iblk m c 1 t) (iblk m c 2 t) (iblk m c 3 t) (iblk m c 4 t) y
    = regionOut m c (((cfg0.win 5).blk t).view.emb y)
  refine block_apply (iblk m c 0 t) (iblk m c 1 t) (iblk m c 2 t) (iblk m c 3 t) (iblk m c 4 t) (V m c main_v4) (V m c main_v5)
    (V m c main_v7) (V m c main_v6) (V m c main_v8) y (((cfg0.win 5).blk t).view.emb y) (fun k => ?_)
    (blk_w1 m c t) (blk_b1 m c t) (blk_w2 m c t) (blk_b2 m c t) ?_
  · refine blk_in m c t (y 0) k _ ?_
    show win0_5.index t (0 : Fin 2) * 6400 + 1 * (y 0).val = t.val * 6400 + (y 0).val
    omega
  · show (y 1).val = win0_5.index t (1 : Fin 2) * 128 + 1 * (y 1).val
    omega

end Cert.EdgeMlp.Kernel

end
-- ==== Proof.HostStages.lean ====
/-
  The arrays the kernel's one region is launched on, as functions of the arguments.

  Before the region @main gathers two sets of rows from the node table (a take in fill mode: the index word is
  normalised, the row gathered, and an out-of-range row replaced by the not-a-number pattern), adds them and the basis,
  narrows the sum and the two weight matrices to bf16, and reshapes each bias vector to one row.
-/
import proofs.«430305_j12532714569873_2_alg».proof.Proof.Gen.KernelIdeal.Frame
import Idealize.ShloMosaic.Lib.StableHlo.Run

noncomputable section

namespace Cert.EdgeMlp.Stages

open Cert.KernelIdeal Cert.KernelIdeal.Gen Idealize.ShloMosaic Idealize.ShloMosaic.TcCoe Idealize.SL.Sem

variable {F : FTy → Type} [FloatOps F]

/-- The index column a take gathers with: each word normalised (a negative one stepped up by 10000), laid out as [320000 × 1]. -/
def takeIdx (idx : (⟨S320000, .i32⟩ : BufTy).Contents (Elt F)) : (⟨S320000x1, .i32⟩ : BufTy).Contents (Elt F) :=
  broadcastInDim S320000x1 ![0] bcast_S320000_S320000x1_0
    (select (cmpi .slt idx (broadcastInDim S320000 ![] bcast_S_S320000 (constantI S_ 32 0#32)))
      (addi idx (broadcastInDim S320000 ![] bcast_S_S320000 (constantI S_ 32 10000#32))) idx)

/-- The in-range mask of a take in fill mode: per row, whether the normalised word lies in [0, 9999]. -/
def takeMask (i5 : (⟨S320000x1, .i32⟩ : BufTy).Contents (Elt F)) : (⟨S320000, .i1⟩ : BufTy).Contents (Elt F) :=
  Host.reduce IntOp.andi
    (andi (cmpi .sge i5 (broadcastInDim S320000x1 ![] bcast_S_S320000x1 (constantI S_ 32 0#32)))
      (cmpi .sle i5 (broadcastInDim S320000x1 ![0, 1] bcast_S1x1_S320000x1_0_1 (broadcastInDim S1x1 ![1] bcast_S1_S1x1_1 (constantI S1 32 9999#32)))))
    (constantI S_ 1 1#1) reducesTo_S320000x1_S320000_d1 h_S_

/-- jnp.take in fill mode along the rows of the node table. -/
def take (x : (⟨S10000x128, .f32⟩ : BufTy).Contents (Elt F)) (idx : (⟨S320000, .i32⟩ : BufTy).Contents (Elt F)) :
    (⟨S320000x128, .f32⟩ : BufTy).Contents (Elt F) :=
  select (broadcastInDim S320000x128 ![0] bcast_S320000_S320000x128_0 (takeMask (F := F) (takeIdx (F := F) idx)))
    (Host.gather gather_S10000x128_S320000x1_S320000x128_1_0_n_n_0_1_1128 x (takeIdx (F := F) idx))
    (broadcastInDim S320000x128 ![] bcast_S_S320000x128 (constant S_ .f32 0x7FC00000#32))

variable (m : (ℓ : Loc nD τ sig) → Buf (Elt F) ℓ)

set_option maxHeartbeats 4000000 in
/-- The region's input array: the two takes and the basis added, narrowed to bf16. -/
theorem V_inter (c : Dev nD) :
    V m c main_v4 = truncf .bf16 (addf (addf (take (F := F) (m ((c : Thread nD τ).loc main_arg2)) (m ((c : Thread nD τ).loc main_arg0)))
        (take (F := F) (m ((c : Thread nD τ).loc main_arg2)) (m ((c : Thread nD τ).loc main_arg1)))) (m ((c : Thread nD τ).loc main_arg3))) bitsLt_bf16_f32 := by
  dsimp only [V]
  simp only [hostOps0, hostOps0_1, hostOps0_2, List.flatten_cons, List.flatten_nil, List.append_nil, List.cons_append, List.nil_append]
  after_results_simp
  simp only [StableHlo.TRef.toBuf, StableHlo.TRef.ofBuf, cast_eq]
  rfl

set_option maxHeartbeats 4000000 in
/-- The first weights as the region finds them: narrowed to bf16. -/
theorem V_w1 (c : Dev nD) : V m c main_v5 = truncf .bf16 (m ((c : Thread nD τ).loc main_arg4)) bitsLt_bf16_f32 := by
  dsimp only [V]
  simp only [hostOps0, hostOps0_1, hostOps0_2, List.flatten_cons, List.flatten_nil, List.append_nil, List.cons_append, List.nil_append]
  after_results_simp

set_option maxHeartbeats 4000000 in
/-- The second weights as the region finds them: narrowed to bf16. -/
theorem V_w2 (c : Dev nD) : V m c main_v6 = truncf .bf16 (m ((c : Thread nD τ).loc main_arg6)) bitsLt_bf16_f32 := by
  dsimp only [V]
  simp only [hostOps0, hostOps0_1, hostOps0_2, List.flatten_cons, List.flatten_nil, List.append_nil, List.cons_append, List.nil_append]
  after_results_simp

set_option maxHeartbeats 4000000 in
/-- The first bias as the region finds it: the vector as one row. -/
theorem V_b1 (c : Dev nD) : V m c main_v7 = shapeCast S1x256 (m ((c : Thread nD τ).loc main_arg5)) shapeCasts_S256_S1x256 := by
  dsimp only [V]
  simp only [hostOps0, hostOps0_1, hostOps0_2, List.flatten_cons, List.flatten_nil, List.append_nil, List.cons_append, List.nil_append]
  after_results_simp
  rfl

set_option maxHeartbeats 4000000 in
/-- The second bias as the region finds it: the vector as one row. -/
theorem V_b2 (c : Dev nD) : V m c main_v8 = shapeCast S1x128 (m ((c : Thread nD τ).loc main_arg7)) shapeCasts_S128_S1x128 := by
  dsimp only [V]
  simp only [hostOps0, hostOps0_1, hostOps0_2, List.flatten_cons, List.flatten_nil, List.append_nil, List.cons_append, List.nil_append]
  after_results_simp
  rfl

end Cert.EdgeMlp.Stages

end
-- ==== Proof.LibRowGatherScatter.lean ====
/-
  A host gather of whole rows and a host scatter-add of whole rows, read at one element.

  `table[idx]` over an [N × C] table with an [E × 1] column of start indices prints as a `stablehlo.gather` whose
  row axis is collapsed and start-indexed and whose column axis is the one offset axis: result row `e` is the table's
  row at `idx e` read signed and clamped into the table.

  `zeros.at[idx].add(upd)` over rows prints as a `stablehlo.scatter` with an `add` body whose row axis is inserted and
  scatter-indexed and whose column axis is the one update-window axis: at the extended reals element (i, q) ends at its
  old value plus the sum of `upd (e, q)` over the rows `e` whose index word reads `i` as a signed integer; a row whose
  index leaves the operand contributes nothing.
-/
import Idealize.ShloMosaic.PureOps.Ideal
import Idealize.ShloMosaic.Lib.ValueIdx

noncomputable section

namespace Cert.Gcn

open Idealize.ShloMosaic Idealize.ShloMosaic.ValueIdx

/-- Result element (e, q) of a row gather is the table's element (row, q), `row` the start index of `e` read signed and
    clamped into `[0, N − 1]`. -/
theorem gather_rows {α : Type} {N E C w : Nat} (d : GatherDims ⟨2, ![N, C]⟩ ⟨2, ![E, 1]⟩ ⟨2, ![E, C]⟩)
    (hoff : d.offsetDims = [1]) (hcoll : d.collapsedSliceDims = [0]) (hob : d.operandBatchingDims = [])
    (hsim : d.startIndexMap = [0]) (hivd : d.indexVectorDim = 1)
    (x : (⟨2, ![N, C]⟩ : Shape).Idx → α) (idx : IVec ⟨2, ![E, 1]⟩ w) (e : Fin E) (q : Fin C) (hN : 0 < N) :
    Host.gather d x idx (ix2 e q) = x (ix2 ⟨min (idx (ix2 e (0 : Fin 1))).toInt.toNat (N - 1), by omega⟩ q) := by
  unfold Host.gather
  congr 1
  funext a
  apply Fin.ext
  have hb : ∀ a : Fin 2, a ∉ d.operandBatchingDims := fun a => by rw [hob]; exact List.not_mem_nil
  -- the result's one batch axis is axis 0, its one offset axis is axis 1
  have he : ∀ X : Fin 2, X ∈ d.batchDims → ((ix2 e q : (⟨2, ![E, C]⟩ : Shape).Idx) X).val = e.val := by
    intro X hX
    have hX' : X ∈ (⟨2, ![E, C]⟩ : Shape).kept [1] := by rw [← hoff]; exact hX
    have h0 : X = 0 := by
      simp [Shape.kept, List.mem_filter] at hX'
      omega
    subst h0; rfl
  have hq : ∀ X : Fin 2, X ∈ d.offsetDims → ((ix2 e q : (⟨2, ![E, C]⟩ : Shape).Idx) X).val = q.val := by
    intro X hX
    rw [hoff] at hX
    obtain rfl := List.mem_singleton.1 hX
    rfl
  match a with
  | ⟨0, _⟩ =>
    -- the row axis: start-indexed and collapsed, so the clamped start alone
    have hk : (0 : Fin 2) ∉ d.sKept := by rw [GatherDims.mem_sKept, hcoll]; simp
    have hm : (0 : Fin 2) ∈ d.startIndexMap := by rw [hsim]; exact List.mem_singleton.mpr rfl
    have hsl : d.sliceSizes 0 = 1 := d.slice_collapsed 0 (by rw [hcoll]; exact List.mem_singleton.mpr rfl)
    show d.start (ix2 e q) idx 0 + d.batchCoord (ix2 e q) 0 + d.offCoord (ix2 e q) 0 = min (idx (ix2 e (0 : Fin 1))).toInt.toNat (N - 1)
    rw [GatherDims.batchCoord_eq_zero _ _ _ (hb _), GatherDims.offCoord_eq_zero _ _ _ hk]
    simp only [Nat.add_zero]
    unfold GatherDims.start
    rw [dif_pos hm]
    show min (idx _).toInt.toNat (N - d.sliceSizes 0) = min (idx (ix2 e (0 : Fin 1))).toInt.toNat (N - 1)
    rw [hsl]
    congr 3
    congr 1
    funext b
    match b with
    | ⟨0, _⟩ =>
      unfold GatherDims.siIdx
      rw [dif_neg (by rw [hivd]; simp)]
      unfold GatherDims.siCoord
      apply Fin.ext
      simp only [Fin.val_cast]
      exact he _ (List.getElem_mem _)
    | ⟨1, _⟩ =>
      unfold GatherDims.siIdx
      rw [dif_pos (by rw [hivd])]
      apply Fin.ext
      show List.idxOf (0 : Fin 2) d.startIndexMap = 0
      rw [hsim]; simp
  | ⟨1, _⟩ =>
    -- the column axis: not start-indexed, kept, so the result's coordinate on the offset axis
    have hk : (1 : Fin 2) ∈ d.sKept := by rw [GatherDims.mem_sKept, hcoll, hob]; simp
    have hm : (1 : Fin 2) ∉ d.startIndexMap := by rw [hsim]; simp
    show d.start (ix2 e q) idx 1 + d.batchCoord (ix2 e q) 1 + d.offCoord (ix2 e q) 1 = q.val
    rw [GatherDims.batchCoord_eq_zero _ _ _ (hb _), Nat.add_zero]
    unfold GatherDims.start GatherDims.offCoord
    rw [dif_neg hm, dif_pos hk, Nat.zero_add]
    exact hq _ (List.getElem_mem _)

/-- Element (i, q) after a row scatter-add at the extended reals: the old value plus the updates of the rows sent to `i`. -/
theorem scatterAdd_rows {N E C w : Nat} (d : ScatterDims ⟨2, ![N, C]⟩ ⟨2, ![E, 1]⟩ ⟨2, ![E, C]⟩)
    (huw : d.updateWindowDims = [1]) (hiw : d.insertedWindowDims = [0]) (hsd : d.scatterDimsToOperandDims = [0])
    (hivd : d.indexVectorDim = 1)
    (x : (⟨2, ![N, C]⟩ : Shape).Idx → EReal) (idx : IVec ⟨2, ![E, 1]⟩ w) (upd : (⟨2, ![E, C]⟩ : Shape).Idx → EReal)
    (i : Fin N) (q : Fin C) :
    (Host.scatterAdd (F := Ideal) (φ := .f32) d x idx upd : (⟨2, ![N, C]⟩ : Shape).Idx → EReal) (ix2 i q)
      = x (ix2 i q) + ∑ e ∈ Finset.univ.filter (fun e : Fin E => (idx (ix2 e (0 : Fin 1))).toInt = (i.val : ℤ)), upd (ix2 e q) := by
  -- the updates' one scatter axis is axis 0
  have hus : ∀ X : Fin 2, X ∈ d.uScatter → X = 0 := by
    intro X hX
    have hX' : X ∈ (⟨2, ![E, C]⟩ : Shape).kept [1] := by rw [← huw]; exact hX
    simp [Shape.kept, List.mem_filter] at hX'
    omega
  -- the row axis starts at the row's index word read signed, with no window coordinate (it is inserted)
  have hs0 : ∀ j : (⟨2, ![E, C]⟩ : Shape).Idx, d.start j idx 0 = (idx (ix2 (j 0) (0 : Fin 1))).toInt := by
    intro j
    have hm : (0 : Fin 2) ∈ d.scatterDimsToOperandDims := by rw [hsd]; exact List.mem_singleton.mpr rfl
    have e0 : ∀ X : Fin 2, X ∈ d.uScatter → (j X).val = (j 0).val := fun X hX => by rw [hus X hX]
    unfold ScatterDims.start
    rw [dif_pos hm]
    congr 2
    funext b
    match b with
    | ⟨0, _⟩ =>
      unfold ScatterDims.siIdx
      rw [dif_neg (by rw [hivd]; simp)]
      unfold ScatterDims.siCoord
      apply Fin.ext
      simp only [Fin.val_cast]
      exact e0 _ (List.getElem_mem _)
    | ⟨1, _⟩ =>
      unfold ScatterDims.siIdx
      rw [dif_pos (by rw [hivd])]
      apply Fin.ext
      show List.idxOf (0 : Fin 2) d.scatterDimsToOperandDims = 0
      rw [hsd]; simp
  have hw0 : ∀ j : (⟨2, ![E, C]⟩ : Shape).Idx, d.window j 0 = 0 := by
    intro j
    have hk : (0 : Fin 2) ∉ d.sKept := by simp [ScatterDims.sKept, Shape.kept, hiw]
    unfold ScatterDims.window
    rw [dif_neg hk]
  -- the column axis starts at 0 (the map does not name it), its window coordinate the update's column
  have hs1 : ∀ j : (⟨2, ![E, C]⟩ : Shape).Idx, d.start j idx 1 = 0 := by
    intro j
    have hm : (1 : Fin 2) ∉ d.scatterDimsToOperandDims := by rw [hsd]; simp
    unfold ScatterDims.start
    rw [dif_neg hm]
  have hw1 : ∀ j : (⟨2, ![E, C]⟩ : Shape).Idx, d.window j 1 = (j 1).val := by
    intro j
    have hk : (1 : Fin 2) ∈ d.sKept := by simp [ScatterDims.sKept, Shape.kept, hiw]
    have e1 : ∀ X : Fin 2, X ∈ d.updateWindowDims → (j X).val = (j 1).val := fun X hX => by
      rw [huw] at hX
      rw [List.mem_singleton.1 hX]
    unfold ScatterDims.window
    rw [dif_pos hk]
    exact e1 _ (List.getElem_mem _)
  -- an update lands at (i, q) exactly when its row's index word reads i and its column is q
  have key : ∀ j : (⟨2, ![E, C]⟩ : Shape).Idx, d.resultIdx? j idx = some (ix2 i q) ↔
      (idx (ix2 (j 0) (0 : Fin 1))).toInt = (i.val : ℤ) ∧ j 1 = q := by
    intro j
    unfold ScatterDims.resultIdx?
    constructor
    · intro h
      split at h
      · rename_i hr
        have hf := Option.some.inj h
        have h0 : (d.start j idx 0 + d.window j 0).toNat = i.val := congrArg Fin.val (congrFun hf 0)
        have h1 : (d.start j idx 1 + d.window j 1).toNat = q.val := congrArg Fin.val (congrFun hf 1)
        have r0 := (hr 0).1
        rw [hs0, hw0] at h0 r0
        rw [hs1, hw1] at h1
        exact ⟨by omega, Fin.ext (by omega)⟩
      · exact absurd h (by simp)
    · rintro ⟨h0, h1⟩
      have hr : ∀ a, 0 ≤ d.start j idx a + d.window j a ∧
          d.start j idx a + d.window j a < (⟨2, ![N, C]⟩ : Shape).size a := by
        intro a
        match a with
        | ⟨0, _⟩ =>
          show 0 ≤ d.start j idx 0 + d.window j 0 ∧ d.start j idx 0 + d.window j 0 < (N : ℤ)
          rw [hs0, hw0, h0]
          have := i.isLt
          omega
        | ⟨1, _⟩ =>
          show 0 ≤ d.start j idx 1 + d.window j 1 ∧ d.start j idx 1 + d.window j 1 < (C : ℤ)
          rw [hs1, hw1]
          have := idx2_lt1 j
          omega
      rw [dif_pos hr]
      congr 1
      funext a
      match a with
      | ⟨0, _⟩ =>
        apply Fin.ext
        show (d.start j idx 0 + d.window j 0).toNat = i.val
        rw [hs0, hw0, h0]
        omega
      | ⟨1, _⟩ =>
        apply Fin.ext
        show (d.start j idx 1 + d.window j 1).toNat = q.val
        rw [hs1, hw1, ← h1]
        omega
  show Ideal.hostScatterAdd d x idx upd (ix2 i q) = _
  unfold Ideal.hostScatterAdd
  congr 1
  -- re-index the updates landing at (i, q) by their row
  refine Finset.sum_bij' (fun j _ => (j 0 : Fin E)) (fun e _ => ix2 e q) ?_ ?_ ?_ ?_ ?_
  · intro j hj
    exact Finset.mem_filter.2 ⟨Finset.mem_univ _, ((key j).1 (Finset.mem_filter.1 hj).2).1⟩
  · intro e he
    exact Finset.mem_filter.2 ⟨Finset.mem_univ _, (key _).2 ⟨(Finset.mem_filter.1 he).2, rfl⟩⟩
  · intro j hj
    have hq := ((key j).1 (Finset.mem_filter.1 hj).2).2
    rw [← hq]
    exact (eq_ix2 j).symm
  · intro e _
    rfl
  · intro j hj
    have hq := ((key j).1 (Finset.mem_filter.1 hj).2).2
    rw [← hq]
    exact congrArg upd (eq_ix2 j)

end Cert.Gcn

end
-- ==== Proof.Take.lean ====
/-
  A fill-mode take whose index words are all in range is the plain row gather.

  When every index word reads inside [0, 10000), the normalisation leaves it alone, both range tests pass on every row,
  the and-reduction of the tests is one on every row, so the select keeps the gathered row everywhere and the
  not-a-number fill is never read. Element (e, k) is then the node table at the row the word names, column k.
-/
import proofs.«430305_j12532714569873_2_alg».proof.Proof.HostStages
import proofs.«430305_j12532714569873_2_alg».proof.Proof.Spec
import proofs.«430305_j12532714569873_2_alg».proof.Proof.LibRowGatherScatter
import Idealize.ShloMosaic.Lib.Pipeline.Value

noncomputable section

namespace Cert.EdgeMlp.Stages

open Cert.KernelIdeal Cert.KernelIdeal.Gen Idealize.ShloMosaic Idealize.ShloMosaic.ValueIdx Cert.EdgeMlp

variable {F : FTy → Type} [FloatOps F]

/-- Row i of the index column is the normalised word of row i. -/
theorem takeIdx_apply (idx : (⟨S320000, .i32⟩ : BufTy).Contents (Elt F)) (i : S320000x1.Idx) :
    takeIdx (F := F) idx i = wrap (idx (ix1 ⟨(i 0).val, (i 0).isLt⟩)) := by
  unfold takeIdx
  rw [broadcastInDim_apply _ bcast_S320000_S320000x1_0 _ i (ix1 ⟨(i 0).val, (i 0).isLt⟩) (fun a => match a with
    | ⟨0, _⟩ => by show (i 0).val = if (320000 : Nat) = 1 then 0 else (i 0).val; rw [if_neg (by decide)])]
  rfl

/-- With every word in range the in-range mask is one on every row. -/
theorem takeMask_ones (idx : (⟨S320000, .i32⟩ : BufTy).Contents (Elt F)) (hidx : ∀ e : Fin 320000, (idx (ix1 e)).toNat < 10000)
    (j : S320000.Idx) : takeMask (F := F) (takeIdx (F := F) idx) j = 1#1 := by
  unfold takeMask
  refine reduce_andi_ones _ _ _ _ rfl (fun i => ?_) j
  show IntOp.andi (IntOp.cmpi .sge (takeIdx (F := F) idx i) 0#32) (IntOp.cmpi .sle (takeIdx (F := F) idx i) 9999#32) = 1#1
  rw [takeIdx_apply, wrap_of_lt _ (hidx _), sge_zero_of_lt _ (hidx _), sle_last_of_lt _ (hidx _)]
  decide

/-- Element (e, k) of the take is the node table at the row word e names, column k. -/
theorem take_apply (x : (⟨S10000x128, .f32⟩ : BufTy).Contents (Elt Ideal)) (idx : (⟨S320000, .i32⟩ : BufTy).Contents (Elt Ideal))
    (hidx : ∀ e : Fin 320000, (idx (ix1 e)).toNat < 10000) (e : Fin 320000) (k : Fin 128) :
    take (F := Ideal) x idx (ix2 e k) = gathered x idx e k := by
  unfold take
  rw [select_apply]
  have hm : broadcastInDim S320000x128 ![0] bcast_S320000_S320000x128_0 (takeMask (F := Ideal) (takeIdx (F := Ideal) idx)) (ix2 e k) = 1#1 := by
    simp only [broadcastInDim]
    exact takeMask_ones idx hidx _
  rw [hm]
  show Host.gather gather_S10000x128_S320000x1_S320000x128_1_0_n_n_0_1_1128 x (takeIdx (F := Ideal) idx) (ix2 e k) = _
  rw [Cert.Gcn.gather_rows gather_S10000x128_S320000x1_S320000x128_1_0_n_n_0_1_1128 rfl rfl rfl rfl rfl x (takeIdx (F := Ideal) idx) e k (by decide)]
  have h : takeIdx (F := Ideal) idx (ix2 e (0 : Fin 1)) = wrap (idx (ix1 e)) := takeIdx_apply idx (ix2 e (0 : Fin 1))
  unfold gathered row
  refine congrArg x (congrArg (fun r : Fin 10000 => ix2 r k) (Fin.ext ?_))
  show min (takeIdx (F := Ideal) idx (ix2 e (0 : Fin 1))).toInt.toNat (10000 - 1) = min (wrap (idx (ix1 e))).toInt.toNat (10000 - 1)
  rw [h]

end Cert.EdgeMlp.Stages

end
-- ==== Proof.PreDecode.lean ====
/-
  What the precondition says of the two index arrays.

  The precondition is a conjunction of `all`-reductions; its last two conjuncts say that every word of the first and of
  the second index array is at least 0 and below 10000 as a signed integer. Read back at row e: both words of row e are
  below 10000 as natural numbers.
-/
import proofs.«430305_j12532714569873_2_alg».proof.Pre_finite_inputs
import proofs.«430305_j12532714569873_2_alg».proof.Proof.Gen.Pre_finite_inputs
import proofs.«430305_j12532714569873_2_alg».proof.Proof.Words
import Idealize.ShloMosaic.Lib.ReduceAll
import Idealize.ShloMosaic.Lib.ValueIdx

noncomputable section

namespace Cert.EdgeMlp.Pre

open Cert.Pre_finite_inputs Idealize.ShloMosaic Idealize.ShloMosaic.ValueIdx Cert.EdgeMlp

instance : Subsingleton S_.Idx := ⟨fun a b => funext fun d => d.elim0⟩

variable {F : FTy → Type} [FloatOps F]

/-- Under the precondition both index words of every row e are below 10000. -/
theorem idx_in_range (a0 a1 : IVec S320000 32) (a2 : FVec F S10000x128 .f32) (a3 : FVec F S320000x128 .f32)
    (a4 : FVec F S128x256 .f32) (a5 : FVec F S256 .f32) (a6 : FVec F S256x128 .f32) (a7 : FVec F S128 .f32)
    (h : Cert.Pre_finite_inputs.fn (F := F) a0 a1 a2 a3 a4 a5 a6 a7 = fun _ => 1#1) (e : Fin 320000) :
    (a0 (ix1 e)).toNat < 10000 ∧ (a1 (ix1 e)).toNat < 10000 := by
  have h0 := congrFun h ix0
  unfold Cert.Pre_finite_inputs.fn Cert.Pre_finite_inputs.fn_part1 Cert.Pre_finite_inputs.fn_part2 at h0
  dsimp only at h0
  change IntOp.andi (IntOp.andi _ _) _ = 1#1 at h0
  obtain ⟨h35, h41⟩ := IntOp.andi_eq_one.1 h0
  obtain ⟨-, h34⟩ := IntOp.andi_eq_one.1 h35
  have hi := Host.reduce_andi_all _ _ _ _ ix0 h34 (ix1 e)
  have hj := Host.reduce_andi_all _ _ _ _ ix0 h41 (ix1 e)
  change IntOp.andi (IntOp.cmpi .sge (a0 (ix1 e)) 0#32) (IntOp.cmpi .slt (a0 (ix1 e)) 10000#32) = 1#1 at hi
  change IntOp.andi (IntOp.cmpi .sge (a1 (ix1 e)) 0#32) (IntOp.cmpi .slt (a1 (ix1 e)) 10000#32) = 1#1 at hj
  obtain ⟨hi0, hi1⟩ := IntOp.andi_eq_one.1 hi
  obtain ⟨hj0, hj1⟩ := IntOp.andi_eq_one.1 hj
  exact ⟨toNat_lt_of_signed_range _ hi0 hi1, toNat_lt_of_signed_range _ hj0 hj1⟩

end Cert.EdgeMlp.Pre

end
-- ==== Proof.KernelRun.lean ====
/-
  The kernel's run, read: the result array ends at the specification of the eight arguments.

  The 50 row blocks of the result tile it, so after the run it holds the perceptron applied to the region-entry input
  array. That input array is, element by element, the two fill-mode takes and the basis added; with every index word in
  range each take is the plain gather, so the input is the specification's three-term sum. The narrowed weights are the
  weights, and each bias row is its bias vector.
-/
import proofs.«430305_j12532714569873_2_alg».proof.Proof.KernelValue
import proofs.«430305_j12532714569873_2_alg».proof.Proof.Take
import proofs.«430305_j12532714569873_2_alg».proof.Proof.PreDecode
import proofs.«430305_j12532714569873_2_alg».proof.Defs

set_option maxRecDepth 16384

noncomputable section

namespace Cert.EdgeMlp.Kernel

open Cert.KernelIdeal Cert.KernelIdeal.Gen Cert.KernelIdeal.Value Idealize.ShloMosaic Idealize.ShloMosaic.TcCoe Idealize.SL.Sem
open Idealize.ShloMosaic.ValueIdx Cert.EdgeMlp
open Idealize.ShloMosaic.Pipeline (Dat)

variable (m : (ℓ : Loc nD τ sig) → Buf (Elt Ideal) ℓ) (ρ : Dev nD → PrngReg)

/-- An index of the result lies in point t's block iff each coordinate lies in the block's range on its axis. -/
theorem mem_blk (t : Fin cfg0.N) (i : S320000x128.Idx) :
    i ∈ ((cfg0.win 5).blk t).view.set ↔ ∀ a : Fin 2, win0_5.index t a * S6400x128.size a ≤ (i a).val ∧ (i a).val < win0_5.index t a * S6400x128.size a + S6400x128.size a := by
  show i ∈ ((View.whole main_v9).slice (win0_5.rect t)).set ↔ _
  rw [View.set_slice_whole, Rect.mem_set_unit]
  exact Iff.rfl

/-- Row r of the result is written by point r / 6400. -/
theorem cover (i : S320000x128.Idx) : ∃ t : Fin cfg0.N, (cfg0.win 5).flush t = true ∧ i ∈ ((cfg0.win 5).blk t).view.set := by
  have hi0 : (i 0).val < 320000 := (i 0).isLt
  have hi1 : (i 1).val < 128 := (i 1).isLt
  have hN : cfg0.N = 50 := N_0
  have ht : (i 0).val / 6400 < cfg0.N := (by omega : (i 0).val / 6400 < 50).trans_eq hN.symm
  obtain ⟨-, -, -, -, -, -, -, -, -, -, e10, e11⟩ := idx_facts ⟨(i 0).val / 6400, ht⟩
  refine ⟨⟨(i 0).val / 6400, ht⟩, flush0_5 _, ?_⟩
  rw [mem_blk]
  intro a
  match a with
  | ⟨0, _⟩ =>
    show win0_5.index ⟨(i 0).val / 6400, ht⟩ (0 : Fin 2) * 6400 ≤ (i 0).val ∧ (i 0).val < win0_5.index ⟨(i 0).val / 6400, ht⟩ (0 : Fin 2) * 6400 + 6400
    rw [e10]
    show (i 0).val / 6400 * 6400 ≤ (i 0).val ∧ (i 0).val < (i 0).val / 6400 * 6400 + 6400
    omega
  | ⟨1, _⟩ =>
    show win0_5.index ⟨(i 0).val / 6400, ht⟩ (1 : Fin 2) * 128 ≤ (i 1).val ∧ (i 1).val < win0_5.index ⟨(i 0).val / 6400, ht⟩ (1 : Fin 2) * 128 + 128
    rw [e11]
    omega

/-- After the run the result array is the perceptron applied to every row of the region-entry input array. -/
theorem final (c : Dev nD) : (dats m 0 c).arrAt 5 cfg0.N = regionOut m c :=
  (dats m 0 c).arrAt_eq_of_cover 5 (regionOut m c) (fun t _ => flushed_eq m c t) cover

/-- A vector reshaped to one row reads, at (0, j), the vector at j. -/
theorem oneRow_apply {n : Nat} (v : (⟨1, ![n]⟩ : Shape).Idx → EReal) (h : (⟨1, ![n]⟩ : Shape).ShapeCasts ⟨2, ![1, n]⟩) (j : Fin n) :
    shapeCast ⟨2, ![1, n]⟩ v h (ix2 (0 : Fin 1) j) = v (ix1 j) := by
  rw [shapeCast_addUnit_apply (n := 1) ![n] v h (ix2 (0 : Fin 1) j)]
  exact congrArg v (funext fun a => by match a with | ⟨0, _⟩ => rfl)

/-- With every index word in range, the perceptron of the region-entry arrays is the specification of the arguments. -/
theorem regionOut_eq (c : Dev nD)
    (hi : ∀ e : Fin 320000, ((m ((c : Thread nD τ).loc main_arg0) : S320000.Idx → BitVec 32) (ix1 e)).toNat < 10000)
    (hj : ∀ e : Fin 320000, ((m ((c : Thread nD τ).loc main_arg1) : S320000.Idx → BitVec 32) (ix1 e)).toNat < 10000) :
    regionOut m c = result (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
      (m ((c : Thread nD τ).loc main_arg6)) (m ((c : Thread nD τ).loc main_arg7)) := by
  unfold regionOut rowsOut result
  have hx : (fun (e : Fin 320000) (k : Fin 128) => (V m c main_v4 : S320000x128.Idx → EReal) (ix2 e k))
      = edgeIn (m ((c : Thread nD τ).loc main_arg0)) (m ((c : Thread nD τ).loc main_arg1)) (m ((c : Thread nD τ).loc main_arg2)) (m ((c : Thread nD τ).loc main_arg3)) := by
    funext e k
    rw [Stages.V_inter]
    show Stages.take (F := Ideal) _ _ (ix2 e k) + Stages.take (F := Ideal) _ _ (ix2 e k) + _ = _
    rw [Stages.take_apply _ _ hi, Stages.take_apply _ _ hj]
    rfl
  have hw1 : (fun (k : Fin 128) (j : Fin 256) => (V m c main_v5 : S128x256.Idx → EReal) (ix2 k j))
      = fun k j => (m ((c : Thread nD τ).loc main_arg4) : S128x256.Idx → EReal) (ix2 k j) := by
    rw [Stages.V_w1]; rfl
  have hw2 : (fun (j : Fin 256) (q : Fin 128) => (V m c main_v6 : S256x128.Idx → EReal) (ix2 j q))
      = fun j q => (m ((c : Thread nD τ).loc main_arg6) : S256x128.Idx → EReal) (ix2 j q) := by
    rw [Stages.V_w2]; rfl
  have hb1 : (fun (j : Fin 256) => (V m c main_v7 : S1x256.Idx → EReal) (ix2 (0 : Fin 1) j))
      = fun j => (m ((c : Thread nD τ).loc main_arg5) : S256.Idx → EReal) (ix1 j) := by
    rw [Stages.V_b1]; funext j; exact oneRow_apply _ _ j
  have hb2 : (fun (q : Fin 128) => (V m c main_v8 : S1x128.Idx → EReal) (ix2 (0 : Fin 1) q))
      = fun q => (m ((c : Thread nD τ).loc main_arg7) : S128.Idx → EReal) (ix1 q) := by
    rw [Stages.V_b2]; funext q; exact oneRow_apply _ _ q
  funext i
  show mlpAt _ _ _ _ _ (i 0) (i 1) = mlpAt _ _ _ _ _ (i 0) (i 1)
  rw [hx, hw1, hw2, hb1, hb2]

/-- The kernel's run under the precondition: the result array ends at the specification, the arguments unchanged. -/
theorem run (hpre : Cert.Pre_KernelIdeal m) : θ_run defs (onTc (τ := τ) (main (F := Ideal))) ⟨m, fun _ => 0, ρ⟩ fun r => ∀ c : Dev nD,
      r.2.mem ((c : Thread nD τ).loc main_v9) = result (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) (m ((c : Thread nD τ).loc main_arg6)) (m ((c : Thread nD τ).loc main_arg7))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans ((final m c).trans (regionOut_eq m c
      (fun e => (Pre.idx_in_range _ _ _ _ _ _ _ _ (hpre c) e).1) (fun e => (Pre.idx_in_range _ _ _ _ _ _ _ _ (hpre c) e).2))), (h c).2⟩)
    (run_blocks m ρ)

end Cert.EdgeMlp.Kernel

end
-- ==== Proof.RefValue.lean ====
/-
  The reference's result, element by element, is the specification.

  The reference normalises each index word, gathers the two sets of rows, adds the first gathered row, the basis row and
  the second gathered row in that order, and applies the two dense layers as host matrix products with the biases
  broadcast along the rows. Over the extended reals addition is commutative and associative, so the three-term sum is the
  specification's, whatever the order; a host matrix product is the plain sum over the contracted axis.
-/
import proofs.«430305_j12532714569873_2_alg».proof.Proof.Gen.ReferenceIdeal.Read
import proofs.«430305_j12532714569873_2_alg».proof.Proof.Spec
import proofs.«430305_j12532714569873_2_alg».proof.Proof.LibRowGatherScatter

noncomputable section

namespace Cert.EdgeMlp.Ref

open Cert.ReferenceIdeal Cert.ReferenceIdeal.Gen Cert.ReferenceIdeal.Read Idealize.ShloMosaic Idealize.ShloMosaic.ValueIdx Cert.EdgeMlp

/-- The index column of the first gather, at row e, is the normalised first index word of e. -/
theorem colI_apply (x0 : (⟨S320000, .i32⟩ : BufTy).Contents (Elt Ideal)) (e : Fin 320000) :
    val_main_v5 (F := Ideal) x0 (ix2 e (0 : Fin 1)) = wrap (x0 (ix1 e)) := by
  rw [val_main_v5_apply]
  have hi : idx_main_v5 (ix2 e (0 : Fin 1)) = ix1 e := funext fun a => by match a with | ⟨0, _⟩ => rfl
  rw [hi]
  rfl

/-- The index column of the second gather, at row e, is the normalised second index word of e. -/
theorem colJ_apply (x1 : (⟨S320000, .i32⟩ : BufTy).Contents (Elt Ideal)) (e : Fin 320000) :
    val_main_v13 (F := Ideal) x1 (ix2 e (0 : Fin 1)) = wrap (x1 (ix1 e)) := by
  rw [val_main_v13_apply]
  have hi : idx_main_v13 (ix2 e (0 : Fin 1)) = ix1 e := funext fun a => by match a with | ⟨0, _⟩ => rfl
  rw [hi]
  rfl

/-- The first gather at (e, k) is the node table at the row the first index word of e names. -/
theorem gatherI_apply (x0 : (⟨S320000, .i32⟩ : BufTy).Contents (Elt Ideal)) (x2 : (⟨S10000x128, .f32⟩ : BufTy).Contents (Elt Ideal))
    (e : Fin 320000) (k : Fin 128) : val_main_v6 (F := Ideal) x0 x2 (ix2 e k) = gathered x2 x0 e k := by
  unfold val_main_v6
  rw [Cert.Gcn.gather_rows gather_S10000x128_S320000x1_S320000x128_1_0_n_n_0_1_1128 rfl rfl rfl rfl rfl x2 (val_main_v5 (F := Ideal) x0) e k (by decide)]
  unfold gathered row
  congr 2
  apply Fin.ext
  show min (val_main_v5 (F := Ideal) x0 (ix2 e (0 : Fin 1))).toInt.toNat (10000 - 1) = min (wrap (x0 (ix1 e))).toInt.toNat (10000 - 1)
  rw [colI_apply]

/-- The second gather at (e, k) is the node table at the row the second index word of e names. -/
theorem gatherJ_apply (x1 : (⟨S320000, .i32⟩ : BufTy).Contents (Elt Ideal)) (x2 : (⟨S10000x128, .f32⟩ : BufTy).Contents (Elt Ideal))
    (e : Fin 320000) (k : Fin 128) : val_main_v14 (F := Ideal) x1 x2 (ix2 e k) = gathered x2 x1 e k := by
  unfold val_main_v14
  rw [Cert.Gcn.gather_rows gather_S10000x128_S320000x1_S320000x128_1_0_n_n_0_1_1128 rfl rfl rfl rfl rfl x2 (val_main_v13 (F := Ideal) x1) e k (by decide)]
  unfold gathered row
  congr 2
  apply Fin.ext
  show min (val_main_v13 (F := Ideal) x1 (ix2 e (0 : Fin 1))).toInt.toNat (10000 - 1) = min (wrap (x1 (ix1 e))).toInt.toNat (10000 - 1)
  rw [colJ_apply]

/-- The perceptron's input in the reference: (first row + basis) + second row, which is the specification's sum reordered. -/
theorem inner_apply (x0 x1 : (⟨S320000, .i32⟩ : BufTy).Contents (Elt Ideal)) (x2 : (⟨S10000x128, .f32⟩ : BufTy).Contents (Elt Ideal))
    (x3 : (⟨S320000x128, .f32⟩ : BufTy).Contents (Elt Ideal)) (e : Fin 320000) (k : Fin 128) :
    val_main_v15 (F := Ideal) x0 x1 x2 x3 (ix2 e k) = edgeIn x0 x1 x2 x3 e k := by
  rw [val_main_v15_apply, val_main_v7_apply, gatherI_apply, gatherJ_apply]
  show gathered x2 x0 e k + x3 (ix2 e k) + gathered x2 x1 e k = gathered x2 x0 e k + gathered x2 x1 e k + x3 (ix2 e k)
  exact add_right_comm _ _ _

/-- The hidden layer at (e, j): tanh of row e of the input against column j of the first weights, plus the first bias. -/
theorem hidden_apply (x0 x1 : (⟨S320000, .i32⟩ : BufTy).Contents (Elt Ideal)) (x2 : (⟨S10000x128, .f32⟩ : BufTy).Contents (Elt Ideal))
    (x3 : (⟨S320000x128, .f32⟩ : BufTy).Contents (Elt Ideal)) (x4 : (⟨S128x256, .f32⟩ : BufTy).Contents (Elt Ideal))
    (x5 : (⟨S256, .f32⟩ : BufTy).Contents (Elt Ideal)) (e : Fin 320000) (j : Fin 256) :
    val_main_v20 (F := Ideal) x0 x1 x2 x3 x4 x5 (ix2 e j)
      = Ideal.tanh ((∑ k : Fin 128, edgeIn x0 x1 x2 x3 e k * x4 (ix2 k j)) + x5 (ix1 j)) := by
  rw [val_main_v20_apply, val_main_v19_apply, val_main_v16_apply, val_main_v18_apply, val_main_v17_apply]
  have hb : idx_main_v17 (idx_main_v18 (ix2 e j)) = ix1 j := funext fun a => by match a with | ⟨0, _⟩ => rfl
  rw [hb]
  show Ideal.tanh ((∑ k : Fin 128, _ * _) + _) = _
  congr 2
  refine Finset.sum_congr rfl fun k _ => ?_
  have hl : lidx_main_v16 (ix2 e j) k = ix2 e k := funext fun a => by match a with | ⟨0, _⟩ => rfl | ⟨1, _⟩ => rfl
  have hr : ridx_main_v16 (ix2 e j) k = ix2 k j := funext fun a => by match a with | ⟨0, _⟩ => rfl | ⟨1, _⟩ => rfl
  rw [hl, hr, inner_apply]

/-- The reference's result array is the specification of the eight arguments. -/
theorem result_eq (x0 x1 : (⟨S320000, .i32⟩ : BufTy).Contents (Elt Ideal)) (x2 : (⟨S10000x128, .f32⟩ : BufTy).Contents (Elt Ideal))
    (x3 : (⟨S320000x128, .f32⟩ : BufTy).Contents (Elt Ideal)) (x4 : (⟨S128x256, .f32⟩ : BufTy).Contents (Elt Ideal))
    (x5 : (⟨S256, .f32⟩ : BufTy).Contents (Elt Ideal)) (x6 : (⟨S256x128, .f32⟩ : BufTy).Contents (Elt Ideal))
    (x7 : (⟨S128, .f32⟩ : BufTy).Contents (Elt Ideal)) :
    val_main_v24 (F := Ideal) x0 x1 x2 x3 x4 x5 x6 x7 = result x0 x1 x2 x3 x4 x5 x6 x7 := by
  funext i
  obtain ⟨e, q, rfl⟩ : ∃ (e : Fin 320000) (q : Fin 128), i = ix2 e q := ⟨i 0, i 1, eq_ix2 i⟩
  rw [val_main_v24_apply, val_main_v21_apply, val_main_v23_apply, val_main_v22_apply]
  have hb : idx_main_v22 (idx_main_v23 (ix2 e q)) = ix1 q := funext fun a => by match a with | ⟨0, _⟩ => rfl
  rw [hb]
  unfold result mlpAt
  show (∑ j : Fin 256, _ * _) + _ = (∑ j : Fin 256, _ * _) + _
  congr 1
  refine Finset.sum_congr rfl fun j _ => ?_
  have hl : lidx_main_v21 (ix2 e q) j = ix2 e j := funext fun a => by match a with | ⟨0, _⟩ => rfl | ⟨1, _⟩ => rfl
  have hr : ridx_main_v21 (ix2 e q) j = ix2 j q := funext fun a => by match a with | ⟨0, _⟩ => rfl | ⟨1, _⟩ => rfl
  rw [hl, hr, hidden_apply]

end Cert.EdgeMlp.Ref

end
-- ==== Proof.lean ====
/-
  A message-passing layer: for each of 320000 edges the rows of a [10000 × 128] node table named by the edge's two index
  words are gathered and added to the edge's row of a [320000 × 128] basis, and the sum goes through a two-layer
  perceptron, out = tanh (x · W1 + b1) · W2 + b2 with W1 [128 × 256] and W2 [256 × 128].

  The kernel gathers with a take in fill mode (an out-of-range row is replaced by the not-a-number pattern), narrows the
  sum and the weights to bf16, and runs the perceptron in 50 row blocks of 6400 edges with both matrix products
  accumulated in f32 from zero. The reference gathers by plain indexing (an out-of-range word is clamped), adds the three
  terms in another order, and applies the layers as whole matrix products.

  Over the extended reals a change of float format is the identity and every matrix product is the plain sum over the
  contracted axis, so the two programs differ only in the order of a three-term sum (addition of extended reals is
  commutative and associative) and in what an out-of-range index word reads. The precondition keeps every index word in
  [0, 10000): there the fill-mode mask is one on every row and both gathers read the node table at the row the word
  names. Both result arrays are then the one function `Cert.EdgeMlp.result` of the eight arguments (Proof/Spec.lean):
  the kernel's by Proof/KernelRun.lean, the reference's by Proof/RefValue.lean. Finiteness of the float inputs is never
  used.
-/
import proofs.«430305_j12532714569873_2_alg».proof.Defs
import proofs.«430305_j12532714569873_2_alg».proof.Proof.Gen.Kernel
import proofs.«430305_j12532714569873_2_alg».proof.Proof.Gen.Kernel.Skeleton
import proofs.«430305_j12532714569873_2_alg».proof.Proof.Gen.Kernel.Launch
import proofs.«430305_j12532714569873_2_alg».proof.Proof.Gen.Kernel.Points
import proofs.«430305_j12532714569873_2_alg».proof.Proof.Gen.Kernel.Frame
import proofs.«430305_j12532714569873_2_alg».proof.Proof.Gen.KernelIdeal
import proofs.«430305_j12532714569873_2_alg».proof.Proof.Gen.KernelIdeal.Skeleton
import proofs.«430305_j12532714569873_2_alg».proof.Proof.Gen.KernelIdeal.Launch
import proofs.«430305_j12532714569873_2_alg».proof.Proof.Gen.KernelIdeal.Points
import proofs.«430305_j12532714569873_2_alg».proof.Proof.Gen.KernelIdeal.Frame
import proofs.«430305_j12532714569873_2_alg».proof.Proof.Gen.ReferenceIdeal
import proofs.«430305_j12532714569873_2_alg».proof.Proof.Gen.Pre_finite_inputs
import proofs.«430305_j12532714569873_2_alg».proof.Proof.Gen.KernelIdeal.Value
import proofs.«430305_j12532714569873_2_alg».proof.Proof.Gen.ReferenceIdeal.Run
import proofs.«430305_j12532714569873_2_alg».proof.Proof.Gen.ReferenceIdeal.Read
import proofs.«430305_j12532714569873_2_alg».proof.Proof.KernelRun
import proofs.«430305_j12532714569873_2_alg».proof.Proof.RefValue
import Idealize.ShloMosaic.Adequacy
import Idealize.ShloMosaic.Init

noncomputable section

namespace Cert.Proof

open Idealize.ShloMosaic Idealize.SL.Sem

/-- The word-level kernel runs and leaves its arguments unchanged. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference is a straight line of host operations: it runs, and none of them writes an argument. -/
theorem frame_referenceIdeal : Cert.frame_ReferenceIdeal := fun m ρ _ =>
  (θ_run Cert.ReferenceIdeal.defs _ _).mono (fun _ h c => (h c).2) (Cert.ReferenceIdeal.Value.run (F := Ideal) m ρ)

/-- No operation of the kernel was rewritten for the reading over the extended reals. -/
theorem preserves : Cert.preserves_Kernel_KernelIdeal := trivial

/-- From memories agreeing on the arguments, with every index word in range, both programs end with the result array at
    the specification of the arguments. -/
theorem algebraic : Cert.algebraic_KernelIdeal_ReferenceIdeal := by
  intro m ρ m' ρ' hpre hagree
  refine ⟨_, Cert.EdgeMlp.Kernel.run m ρ hpre, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7⟩ := hagree c
  rw [Cert.ReferenceIdeal.Read.val_main_v24_eq, Cert.EdgeMlp.Ref.result_eq, h0, h1, h2, h3, h4, h5, h6, h7]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
